-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128 : Shape := ⟨1, ![128]⟩
abbrev S128x10000 : Shape := ⟨2, ![128, 10000]⟩
abbrev S128x100 : Shape := ⟨2, ![128, 100]⟩
abbrev S10000x10000 : Shape := ⟨2, ![10000, 10000]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S128x10000 : S_.BroadcastsInDim S128x10000 (![] : Fin 0 → Fin S128x10000.rank)
  reducesTo_S128x10000_S_d0_1 : S128x10000.ReducesTo [0, 1] S_
  bcast_S_S128x100 : S_.BroadcastsInDim S128x100 (![] : Fin 0 → Fin S128x100.rank)
  reducesTo_S128x100_S_d0_1 : S128x100.ReducesTo [0, 1] S_

variable [Facts]

def fn_part1 {F : FTy → Type} [FloatOps F] (main_v10 : IVec S_ 1) (main_v15 : IVec S128x100 1) (main_c_5 : IVec S_ 1) : IVec S_ 1 :=
  let main_v16 : IVec S_ 1 := (fun x v => Host.reduce IntOp.andi x v reducesTo_S128x100_S_d0_1 h_S_) main_v15 main_c_5
  let main_v17 : IVec S_ 1 := andi main_v10 main_v16
  main_v17

def fn {F : FTy → Type} [FloatOps F] (main_arg0 : IVec S128 32) (main_arg1 : IVec S128x10000 32) (main_arg2 : IVec S128x100 32) (main_arg3 : FVec F S10000x10000 .f32) : IVec S_ 1 :=
  let main_v0 : FVec F S10000x10000 .f32 := Host.absf main_arg3
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_c_0 : IVec S_ 32 := constantI S_ 32 0#32
  let main_v4 : IVec S128x10000 32 := broadcastInDim S128x10000 ![] bcast_S_S128x10000 main_c_0
  let main_v5 : IVec S128x10000 1 := cmpi .sge main_arg1 main_v4
  let main_c_1 : IVec S_ 32 := constantI S_ 32 10000#32
  let main_v6 : IVec S128x10000 32 := broadcastInDim S128x10000 ![] bcast_S_S128x10000 main_c_1
  let main_v7 : IVec S128x10000 1 := cmpi .slt main_arg1 main_v6
  let main_v8 : IVec S128x10000 1 := andi main_v5 main_v7
  let main_c_2 : IVec S_ 1 := constantI S_ 1 1#1
  let main_v9 : IVec S_ 1 := (fun x v => Host.reduce IntOp.andi x v reducesTo_S128x10000_S_d0_1 h_S_) main_v8 main_c_2
  let main_v10 : IVec S_ 1 := andi main_v3 main_v9
  let main_c_3 : IVec S_ 32 := constantI S_ 32 0#32
  let main_v11 : IVec S128x100 32 := broadcastInDim S128x100 ![] bcast_S_S128x100 main_c_3
  let main_v12 : IVec S128x100 1 := cmpi .sge main_arg2 main_v11
  let main_c_4 : IVec S_ 32 := constantI S_ 32 10000#32
  let main_v13 : IVec S128x100 32 := broadcastInDim S128x100 ![] bcast_S_S128x100 main_c_4
  let main_v14 : IVec S128x100 1 := cmpi .slt main_arg2 main_v13
  let main_v15 : IVec S128x100 1 := andi main_v12 main_v14
  let main_c_5 : IVec S_ 1 := constantI S_ 1 1#1
  fn_part1 (F := F) main_v10 main_v15 main_c_5
-- ==== Kernel.lean ====
abbrev S128 : Shape := ⟨1, ![128]⟩
abbrev S128x10000 : Shape := ⟨2, ![128, 10000]⟩
abbrev S128x100 : Shape := ⟨2, ![128, 100]⟩
abbrev S10000x10000 : Shape := ⟨2, ![10000, 10000]⟩
abbrev S128x1 : Shape := ⟨2, ![128, 1]⟩
abbrev S_ : Shape := ⟨0, ![]⟩
abbrev S128x10000x1 : Shape := ⟨3, ![128, 10000, 1]⟩
abbrev S128x10000x2 : Shape := ⟨3, ![128, 10000, 2]⟩
abbrev S128x100x1 : Shape := ⟨3, ![128, 100, 1]⟩
abbrev S128x100x2 : Shape := ⟨3, ![128, 100, 2]⟩
abbrev S10000x128 : Shape := ⟨2, ![10000, 128]⟩
abbrev S200x10000 : Shape := ⟨2, ![200, 10000]⟩
abbrev S200x128 : Shape := ⟨2, ![200, 128]⟩
abbrev S1 : Shape := ⟨1, ![1]⟩
abbrev S1x1x1 : Shape := ⟨3, ![1, 1, 1]⟩

abbrev nBuf : Space → Nat
  | .hbm => 83
  | .vmem => 5
  | .smem => 0
  | _ => 0

abbrev bufTy : (tb : Table) → Fin (tcTables nBuf tb) → BufTy
  | .hbm, ⟨0, _⟩ => ⟨S128, .i32⟩
  | .hbm, ⟨1, _⟩ => ⟨S128x10000, .i32⟩
  | .hbm, ⟨2, _⟩ => ⟨S128x100, .i32⟩
  | .hbm, ⟨3, _⟩ => ⟨S10000x10000, .f32⟩
  | .hbm, ⟨4, _⟩ => ⟨S128, .i32⟩
  | .hbm, ⟨5, _⟩ => ⟨S128x1, .i32⟩
  | .hbm, ⟨6, _⟩ => ⟨S_, .f32⟩
  | .hbm, ⟨7, _⟩ => ⟨S128x10000, .f32⟩
  | .hbm, ⟨8, _⟩ => ⟨S_, .i32⟩
  | .hbm, ⟨9, _⟩ => ⟨S128x1, .i32⟩
  | .hbm, ⟨10, _⟩ => ⟨S128x1, .i1⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S128x1, .i32⟩
  | .hbm, ⟨15, _⟩ => ⟨S_, .i32⟩
  | .hbm, ⟨16, _⟩ => ⟨S128x10000, .i32⟩
  | .hbm, ⟨17, _⟩ => ⟨S128x10000, .i1⟩
  | .hbm, ⟨18, _⟩ => ⟨S_, .i32⟩
  | .hbm, ⟨19, _⟩ => ⟨S128x10000, .i32⟩
  | .hbm, ⟨20, _⟩ => ⟨S128x10000, .i32⟩
  | .hbm, ⟨21, _⟩ => ⟨S128x10000, .i32⟩
  | .hbm, ⟨22, _⟩ => ⟨S128x10000, .i32⟩
  | .hbm, ⟨23, _⟩ => ⟨S128x10000x1, .i32⟩
  | .hbm, ⟨24, _⟩ => ⟨S128x10000x1, .i32⟩
  | .hbm, ⟨25, _⟩ => ⟨S128x10000x2, .i32⟩
  | .hbm, ⟨26, _⟩ => ⟨S_, .f32⟩
  | .hbm, ⟨27, _⟩ => ⟨S128x10000, .f32⟩
  | .hbm, ⟨28, _⟩ => ⟨S128x10000, .f32⟩
  | .hbm, ⟨29, _⟩ => ⟨S_, .f32⟩
  | .hbm, ⟨30, _⟩ => ⟨S128x10000, .f32⟩
  | .hbm, ⟨31, _⟩ => ⟨S128x10000, .i1⟩
  | .hbm, ⟨32, _⟩ => ⟨S_, .f32⟩
  | .hbm, ⟨33, _⟩ => ⟨S128x10000, .f32⟩
  | .hbm, ⟨34, _⟩ => ⟨S_, .i32⟩
  | .hbm, ⟨35, _⟩ => ⟨S128x1, .i32⟩
  | .hbm, ⟨36, _⟩ => ⟨S128x1, .i1⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S128x1, .i32⟩
  | .hbm, ⟨41, _⟩ => ⟨S_, .i32⟩
  | .hbm, ⟨42, _⟩ => ⟨S128x100, .i32⟩
  | .hbm, ⟨43, _⟩ => ⟨S128x100, .i1⟩
  | .hbm, ⟨44, _⟩ => ⟨S_, .i32⟩
  | .hbm, ⟨45, _⟩ => ⟨S128x100, .i32⟩
  | .hbm, ⟨46, _⟩ => ⟨S128x100, .i32⟩
  | .hbm, ⟨47, _⟩ => ⟨S128x100, .i32⟩
  | .hbm, ⟨48, _⟩ => ⟨S128x100, .i32⟩
  | .hbm, ⟨49, _⟩ => ⟨S128x100x1, .i32⟩
  | .hbm, ⟨50, _⟩ => ⟨S128x100x1, .i32⟩
  | .hbm, ⟨51, _⟩ => ⟨S128x100x2, .i32⟩
  | .hbm, ⟨52, _⟩ => ⟨S_, .f32⟩
  | .hbm, ⟨53, _⟩ => ⟨S128x100, .f32⟩
  | .hbm, ⟨54, _⟩ => ⟨S128x10000, .f32⟩
  | .hbm, ⟨55, _⟩ => ⟨S_, .f32⟩
  | .hbm, ⟨56, _⟩ => ⟨S_, .f32⟩
  | .hbm, ⟨57, _⟩ => ⟨S128x10000, .f32⟩
  | .hbm, ⟨58, _⟩ => ⟨S128x10000, .f32⟩
  | .hbm, ⟨59, _⟩ => ⟨S10000x128, .f32⟩
  | .hbm, ⟨60, _⟩ => ⟨S128x10000, .f32⟩
  | .hbm, ⟨61, _⟩ => ⟨S_, .i32⟩
  | .hbm, ⟨62, _⟩ => ⟨S128x10000, .i32⟩
  | .hbm, ⟨63, _⟩ => ⟨S128x10000, .i1⟩
  | .hbm, ⟨64, _⟩ => ⟨S_, .i32⟩
  | .hbm, ⟨65, _⟩ => ⟨S128x10000, .i32⟩
  | .hbm, ⟨66, _⟩ => ⟨S128x10000, .i32⟩
  | .hbm, ⟨67, _⟩ => ⟨S128x10000, .i32⟩
  | .hbm, ⟨68, _⟩ => ⟨S128x10000x1, .i32⟩
  | .hbm, ⟨69, _⟩ => ⟨S1, .i32⟩
  | .hbm, ⟨70, _⟩ => ⟨S_, .i32⟩
  | .hbm, ⟨71, _⟩ => ⟨S128x10000x1, .i32⟩
  | .hbm, ⟨72, _⟩ => ⟨S128x10000x1, .i1⟩
  | .hbm, ⟨73, _⟩ => ⟨S1x1x1, .i32⟩
  | .hbm, ⟨74, _⟩ => ⟨S128x10000x1, .i32⟩
  | .hbm, ⟨75, _⟩ => ⟨S128x10000x1, .i1⟩
  | .hbm, ⟨76, _⟩ => ⟨S128x10000x1, .i1⟩
  | .hbm, ⟨77, _⟩ => ⟨S_, .i1⟩
  | .hbm, ⟨78, _⟩ => ⟨S128x10000, .i1⟩
  | .hbm, ⟨79, _⟩ => ⟨S128x10000, .f32⟩
  | .hbm, ⟨80, _⟩ => ⟨S_, .f32⟩
  | .hbm, ⟨81, _⟩ => ⟨S128x10000, .f32⟩
  | .hbm, ⟨82, _⟩ => ⟨S128x10000, .f32⟩
  | .local _ .vmem, ⟨0, _⟩ => ⟨S200x10000, .f32⟩
  | .local _ .vmem, ⟨1, _⟩ => ⟨S200x10000, .f32⟩
  | .local _ .vmem, ⟨2, _⟩ => ⟨S128x10000, .f32⟩
  | .local _ .vmem, ⟨3, _⟩ => ⟨S200x128, .f32⟩
  | .local _ .vmem, ⟨4, _⟩ => ⟨S200x128, .f32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_c_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_call0_v0 : Ref sig .tc := ⟨.hbm, 56, rfl⟩
abbrev main_call0_v1 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_cst : Ref sig .tc := ⟨.hbm, 80, rfl⟩
abbrev main_call1_v14 : Ref sig .tc := ⟨.hbm, 81, rfl⟩
abbrev main_v41 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S128_S128x1_0 : S128.BroadcastsInDim S128x1 (![0] : Fin 1 → Fin S128x1.rank)
  bcast_S_S128x10000 : S_.BroadcastsInDim S128x10000 (![] : Fin 0 → Fin S128x10000.rank)
  bcast_S_S128x1 : S_.BroadcastsInDim S128x1 (![] : Fin 0 → Fin S128x1.rank)
  bcast_S128x1_S128x10000_0_1 : S128x1.BroadcastsInDim S128x10000 (![0, 1] : Fin 2 → Fin S128x10000.rank)
  bcast_S128x10000_S128x10000x1_0_1 : S128x10000.BroadcastsInDim S128x10000x1 (![0, 1] : Fin 2 → Fin S128x10000x1.rank)
  concatenates_S128x10000x1_S128x10000x1_S128x10000x2_d2 : Shape.Concatenates [S128x10000x1, S128x10000x1] S128x10000x2 2
  bcast_S_S128x100 : S_.BroadcastsInDim S128x100 (![] : Fin 0 → Fin S128x100.rank)
  bcast_S128x1_S128x100_0_1 : S128x1.BroadcastsInDim S128x100 (![0, 1] : Fin 2 → Fin S128x100.rank)
  bcast_S128x100_S128x100x1_0_1 : S128x100.BroadcastsInDim S128x100x1 (![0, 1] : Fin 2 → Fin S128x100x1.rank)
  concatenates_S128x100x1_S128x100x1_S128x100x2_d2 : Shape.Concatenates [S128x100x1, S128x100x1] S128x100x2 2
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S128x10000_S128x10000_0_0 : ∀ a, (![0, 0] : Fin 2 → Nat) a + S128x10000.size a ≤ S128x10000.size a
  h_S128x10000 : 0 < S128x10000.numel
  shapeCasts_S128x10000_S128x10000 : S128x10000.ShapeCasts S128x10000
  inb_S200x128_S200x128_0_0 : ∀ a, (![0, 0] : Fin 2 → Nat) a + S200x128.size a ≤ S200x128.size a
  h_S200x128 : 0 < S200x128.numel
  transposes_S10000x128_S128x10000_1_0 : S10000x128.Transposes [1, 0] S128x10000
  shapeCasts_S128x10000_S128x10000x1 : S128x10000.ShapeCasts S128x10000x1
  bcast_S_S128x10000x1 : S_.BroadcastsInDim S128x10000x1 (![] : Fin 0 → Fin S128x10000x1.rank)
  bcast_S1_S1x1x1_2 : S1.BroadcastsInDim S1x1x1 (![2] : Fin 1 → Fin S1x1x1.rank)
  bcast_S1x1x1_S128x10000x1_0_1_2 : S1x1x1.BroadcastsInDim S128x10000x1 (![0, 1, 2] : Fin 3 → Fin S128x10000x1.rank)
  reducesTo_S128x10000x1_S128x10000_d2 : S128x10000x1.ReducesTo [2] S128x10000
  h_S_ : 0 < S_.numel
  scatter_S128x10000_S128x10000x2_S128x10000_n_01_01_2_wf : ScatterDims.WF S128x10000 S128x10000x2 S128x10000 [] [0, 1] [0, 1] 2
  scatter_S128x10000_S128x100x2_S128x100_n_01_01_2_wf : ScatterDims.WF S128x10000 S128x100x2 S128x100 [] [0, 1] [0, 1] 2
  dot_S200x10000_S128x10000_S200x128_1_1_0_0_n_n_wf : DotDims.WF S200x10000 S128x10000 S200x128 [1] [1] [0] [0] [] []
  gather_S128x10000_S128x10000x1_S128x10000_n_1_0_0_1_2_11_wf : GatherDims.WF S128x10000 S128x10000x1 S128x10000 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10000.size a ≤ S128x10000.size a
  hwx0_1 : ∀ i : grid0.Coords, EltTy.bits .f32 = 32 ∨ (Rect.block (s := S128x10000) S128x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x128.size a ≤ S10000x128.size a
  hwx0_2 : ∀ i : grid0.Coords, EltTy.bits .f32 = 32 ∨ (Rect.block (s := S10000x128) S200x128.size (cc0_transform_2 i) (hinb0_2 i)).WholeWords (EltTy.packing .f32)

variable [Facts₀]

def scatter_S128x10000_S128x10000x2_S128x10000_n_01_01_2 : ScatterDims S128x10000 S128x10000x2 S128x10000 where
  updateWindowDims := []
  insertedWindowDims := [0, 1]
  scatterDimsToOperandDims := [0, 1]
  indexVectorDim := 2
  wf := scatter_S128x10000_S128x10000x2_S128x10000_n_01_01_2_wf
def scatter_S128x10000_S128x100x2_S128x100_n_01_01_2 : ScatterDims S128x10000 S128x100x2 S128x100 where
  updateWindowDims := []
  insertedWindowDims := [0, 1]
  scatterDimsToOperandDims := [0, 1]
  indexVectorDim := 2
  wf := scatter_S128x10000_S128x100x2_S128x100_n_01_01_2_wf
def dot_S200x10000_S128x10000_S200x128_1_1_0_0_n_n : DotDims S200x10000 S128x10000 S200x128 where
  lhsContracting := [1]
  rhsContracting := [1]
  lhsNonContracting := [0]
  rhsNonContracting := [0]
  lhsBatch := []
  rhsBatch := []
  wf := dot_S200x10000_S128x10000_S200x128_1_1_0_0_n_n_wf
def gather_S128x10000_S128x10000x1_S128x10000_n_1_0_0_1_2_11 : GatherDims S128x10000 S128x10000x1 S128x10000 where
  offsetDims := []
  collapsedSliceDims := [1]
  operandBatchingDims := [0]
  startIndicesBatchingDims := [0]
  startIndexMap := [1]
  indexVectorDim := 2
  sliceSizes := ![1, 1]
  wf := gather_S128x10000_S128x10000x1_S128x10000_n_1_0_0_1_2_11_wf

abbrev win0_0 : Pipeline.Window sig grid0 :=
  Pipeline.Window.ofSpec (Memref.whole main_arg3) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S128x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S200x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128 : Shape := ⟨1, ![128]⟩
abbrev S128x10000 : Shape := ⟨2, ![128, 10000]⟩
abbrev S128x100 : Shape := ⟨2, ![128, 100]⟩
abbrev S10000x10000 : Shape := ⟨2, ![10000, 10000]⟩
abbrev S128x10000x1 : Shape := ⟨3, ![128, 10000, 1]⟩
abbrev S128x1x100 : Shape := ⟨3, ![128, 1, 100]⟩
abbrev S128x10000x100 : Shape := ⟨3, ![128, 10000, 100]⟩
abbrev S_ : Shape := ⟨0, ![]⟩
abbrev S128x10000x100x1 : Shape := ⟨4, ![128, 10000, 100, 1]⟩
abbrev S128x10000x100x2 : Shape := ⟨4, ![128, 10000, 100, 2]⟩

abbrev nBuf : Space → Nat
  | .hbm => 41
  | .vmem => 0
  | .smem => 0
  | _ => 0

abbrev bufTy : (tb : Table) → Fin (tcTables nBuf tb) → BufTy
  | .hbm, ⟨0, _⟩ => ⟨S128, .i32⟩
  | .hbm, ⟨1, _⟩ => ⟨S128x10000, .i32⟩
  | .hbm, ⟨2, _⟩ => ⟨S128x100, .i32⟩
  | .hbm, ⟨3, _⟩ => ⟨S10000x10000, .f32⟩
  | .hbm, ⟨4, _⟩ => ⟨S128x10000x1, .i32⟩
  | .hbm, ⟨5, _⟩ => ⟨S128x1x100, .i32⟩
  | .hbm, ⟨6, _⟩ => ⟨S128x10000x100, .i32⟩
  | .hbm, ⟨7, _⟩ => ⟨S128x10000x100, .i32⟩
  | .hbm, ⟨8, _⟩ => ⟨S128x10000x100, .i1⟩
  | .hbm, ⟨9, _⟩ => ⟨S_, .i1⟩
  | .hbm, ⟨10, _⟩ => ⟨S128x100, .i1⟩
  | .hbm, ⟨11, _⟩ => ⟨S128x10000x1, .i32⟩
  | .hbm, ⟨12, _⟩ => ⟨S128x1x100, .i32⟩
  | .hbm, ⟨13, _⟩ => ⟨S_, .i32⟩
  | .hbm, ⟨14, _⟩ => ⟨S128x10000x1, .i32⟩
  | .hbm, ⟨15, _⟩ => ⟨S128x10000x1, .i1⟩
  | .hbm, ⟨16, _⟩ => ⟨S_, .i32⟩
  | .hbm, ⟨17, _⟩ => ⟨S128x10000x1, .i32⟩
  | .hbm, ⟨18, _⟩ => ⟨S128x10000x1, .i32⟩
  | .hbm, ⟨19, _⟩ => ⟨S128x10000x1, .i32⟩
  | .hbm, ⟨20, _⟩ => ⟨S_, .i32⟩
  | .hbm, ⟨21, _⟩ => ⟨S128x1x100, .i32⟩
  | .hbm, ⟨22, _⟩ => ⟨S128x1x100, .i1⟩
  | .hbm, ⟨23, _⟩ => ⟨S_, .i32⟩
  | .hbm, ⟨24, _⟩ => ⟨S128x1x100, .i32⟩
  | .hbm, ⟨25, _⟩ => ⟨S128x1x100, .i32⟩
  | .hbm, ⟨26, _⟩ => ⟨S128x1x100, .i32⟩
  | .hbm, ⟨27, _⟩ => ⟨S128x10000x100, .i32⟩
  | .hbm, ⟨28, _⟩ => ⟨S128x10000x100, .i32⟩
  | .hbm, ⟨29, _⟩ => ⟨S128x10000x100x1, .i32⟩
  | .hbm, ⟨30, _⟩ => ⟨S128x10000x100x1, .i32⟩
  | .hbm, ⟨31, _⟩ => ⟨S128x10000x100x2, .i32⟩
  | .hbm, ⟨32, _⟩ => ⟨S128x10000x100, .f32⟩
  | .hbm, ⟨33, _⟩ => ⟨S128x1x100, .i1⟩
  | .hbm, ⟨34, _⟩ => ⟨S_, .f32⟩
  | .hbm, ⟨35, _⟩ => ⟨S_, .f32⟩
  | .hbm, ⟨36, _⟩ => ⟨S128x10000x100, .i1⟩
  | .hbm, ⟨37, _⟩ => ⟨S128x10000x100, .f32⟩
  | .hbm, ⟨38, _⟩ => ⟨S128x10000x100, .f32⟩
  | .hbm, ⟨39, _⟩ => ⟨S_, .f32⟩
  | .hbm, ⟨40, _⟩ => ⟨S128x10000, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S128x10000_S128x10000x1_0_1 : S128x10000.BroadcastsInDim S128x10000x1 (![0, 1] : Fin 2 → Fin S128x10000x1.rank)
  bcast_S128x100_S128x1x100_0_2 : S128x100.BroadcastsInDim S128x1x100 (![0, 2] : Fin 2 → Fin S128x1x100.rank)
  bcast_S128x10000x1_S128x10000x100_0_1_2 : S128x10000x1.BroadcastsInDim S128x10000x100 (![0, 1, 2] : Fin 3 → Fin S128x10000x100.rank)
  bcast_S128x1x100_S128x10000x100_0_1_2 : S128x1x100.BroadcastsInDim S128x10000x100 (![0, 1, 2] : Fin 3 → Fin S128x10000x100.rank)
  reducesTo_S128x10000x100_S128x100_d1 : S128x10000x100.ReducesTo [1] S128x100
  h_S_ : 0 < S_.numel
  bcast_S_S128x10000x1 : S_.BroadcastsInDim S128x10000x1 (![] : Fin 0 → Fin S128x10000x1.rank)
  bcast_S_S128x1x100 : S_.BroadcastsInDim S128x1x100 (![] : Fin 0 → Fin S128x1x100.rank)
  bcast_S128x10000x100_S128x10000x100x1_0_1_2 : S128x10000x100.BroadcastsInDim S128x10000x100x1 (![0, 1, 2] : Fin 3 → Fin S128x10000x100x1.rank)
  concatenates_S128x10000x100x1_S128x10000x100x1_S128x10000x100x2_d3 : Shape.Concatenates [S128x10000x100x1, S128x10000x100x1] S128x10000x100x2 3
  bcast_S_S128x10000x100 : S_.BroadcastsInDim S128x10000x100 (![] : Fin 0 → Fin S128x10000x100.rank)
  reducesTo_S128x10000x100_S128x10000_d2 : S128x10000x100.ReducesTo [2] S128x10000
  gather_S10000x10000_S128x10000x100x2_S128x10000x100_n_01_n_n_01_3_11_wf : GatherDims.WF S10000x10000 S128x10000x100x2 S128x10000x100 [] [0, 1] [] [0, 1] [] 3 ![1, 1]

variable [Facts₀]

def gather_S10000x10000_S128x10000x100x2_S128x10000x100_n_01_n_n_01_3_11 : GatherDims S10000x10000 S128x10000x100x2 S128x10000x100 where
  offsetDims := []
  collapsedSliceDims := [0, 1]
  operandBatchingDims := []
  startIndicesBatchingDims := []
  startIndexMap := [0, 1]
  indexVectorDim := 3
  sliceSizes := ![1, 1]
  wf := gather_S10000x10000_S128x10000x100x2_S128x10000x100_n_01_n_n_01_3_11_wf

class Facts : Prop extends Facts₀ where

variable [Facts]
-- ==== Proof.Score.lean ====
/-
  Item-to-item nearest-neighbour scores, as one function of the argument arrays.

  A batch row b carries 10000 candidate ids `item[b, ·]` and 100 seen ids `seen[b, ·]`; `sim` is the
  10000 × 10000 item-item similarity table. The score of candidate i of row b is the sum, over the seen slots s whose id
  is NOT itself one of the row's candidates, of `sim[item[b, i], seen[b, s]]`:

      score[b, i] = ∑ s, if seen[b, s] ∈ item[b, ·] then 0 else sim[item[b, i], seen[b, s]].

  Ids are 32-bit words read signed; a table is read at an id clamped into [0, 9999], which is the id itself when the
  id is a valid one (`ValidId`: 0 ≤ id < 10000).

  The same number is a matrix product: with the coefficient matrix

      coef[b, v] = 0 if v is one of row b's candidates, else the number of seen slots of row b holding v,

  score[b, i] = ∑ v, sim[item[b, i], v] · coef[b, v] whenever the similarities are real numbers (the multiplicity
  of v among the seen slots is split back into one term per slot).
-/
import Idealize.ShloMosaic.Lib.ValueIdx

noncomputable section

namespace Cert.Knn

open Idealize.ShloMosaic Idealize.ShloMosaic.ValueIdx
open scoped BigOperators

/-- Candidate ids, and every array laid out like them: [batch, candidate]. -/
abbrev SCand : Shape := ⟨2, ![128, 10000]⟩
/-- Seen ids: [batch, slot]. -/
abbrev SSeen : Shape := ⟨2, ![128, 100]⟩
/-- The similarity table: [item, item]. -/
abbrev SSim : Shape := ⟨2, ![10000, 10000]⟩
/-- The product of the table with the coefficient matrix, as the kernel lays it out: [item, batch]. -/
abbrev SProd : Shape := ⟨2, ![10000, 128]⟩

/-- An id word is a valid item id: read signed it lies in [0, 10000). -/
def ValidId (v : BitVec 32) : Prop := 0 ≤ v.toInt ∧ v.toInt < 10000

/-- An id word read signed and clamped into the table's range [0, 9999]. -/
def clampId (v : BitVec 32) : Fin 10000 := ⟨min v.toInt.toNat 9999, by omega⟩

/-- The id `x` is one of row `b`'s candidates. -/
abbrev IsCand (item : IVec SCand 32) (b : Fin 128) (x : BitVec 32) : Prop := ∃ i : Fin 10000, item (ix2 b i) = x

/-- The score of every candidate: the similarities of the candidate to the row's seen ids that are not candidates,
    summed over the seen slots. -/
def score (item : IVec SCand 32) (seen : IVec SSeen 32) (sim : SSim.Idx → EReal) : SCand.Idx → EReal := fun j =>
  ∑ s : Fin 100, if IsCand item (j 0) (seen (ix2 (j 0) s)) then 0
    else sim (ix2 (clampId (item j)) (clampId (seen (ix2 (j 0) s))))

/-- The coefficient matrix [batch, item]: zero at a candidate of the row, else how many seen slots of the row hold the item. -/
def coef (item : IVec SCand 32) (seen : IVec SSeen 32) : SCand.Idx → EReal := fun j =>
  if ∃ i : Fin 10000, (item (ix2 (j 0) i)).toNat = (j 1).val then 0
  else (((Finset.univ.filter fun s : Fin 100 => (seen (ix2 (j 0) s)).toNat = (j 1).val).card : ℝ) : EReal)

/-- The table times the coefficient matrix, contracted over the second item axis: entry (u, b). -/
def tableProduct (sim : SSim.Idx → EReal) (C : SCand.Idx → EReal) : SProd.Idx → EReal := fun j =>
  ∑ v : Fin 10000, sim (ix2 (j 0) v) * C (ix2 (j 1) v)

end Cert.Knn

end
-- ==== Proof.Ids.lean ====
/-
  Item ids as 32-bit words. A valid id (0 ≤ id < 10000 read signed) is its own unsigned value, is not
  negative, passes the range tests a gather makes before it reads, and is its own clamp into [0, 9999].
-/
import proofs.«417806_j46179488367358_1_alg».proof.Proof.Score
import Idealize.ShloMosaic.Lib.StableHlo.Predicate

noncomputable section

namespace Cert.Knn

open Idealize.ShloMosaic

/-- The signed readings of the three constants the range tests compare against. -/
private theorem toInt_zero32 : (0#32 : BitVec 32).toInt = 0 := by decide
private theorem toInt_last32 : (9999#32 : BitVec 32).toInt = 9999 := by decide
private theorem toInt_count32 : (10000#32 : BitVec 32).toInt = 10000 := by decide

/-- A one-bit answer made from a truth value is 1 exactly when the value is true, 0 exactly when it is false. -/
private theorem ofBool_one {b : Bool} : BitVec.ofBool b = 1#1 ↔ b = true := by cases b <;> decide
private theorem ofBool_zero {b : Bool} : BitVec.ofBool b = 0#1 ↔ b = false := by cases b <;> decide

/-- The signed reading of a word is its unsigned reading, less 2³² when the top bit is set. A reading in
    [0, 10000) therefore has the top bit clear, and the two readings agree. -/
private theorem ValidId.both {v : BitVec 32} (h : ValidId v) : v.toNat < 10000 ∧ v.toInt = (v.toNat : ℤ) := by
  obtain ⟨h0, h1⟩ := h
  have hlt : v.toNat < 2 ^ 32 := v.isLt
  have hc := BitVec.toInt_eq_toNat_cond v
  by_cases hm : 2 * v.toNat < 2 ^ 32
  · rw [if_pos hm] at hc
    constructor <;> omega
  · rw [if_neg hm] at hc
    exfalso; omega

theorem ValidId.toNat_lt {v : BitVec 32} (h : ValidId v) : v.toNat < 10000 := h.both.1

theorem ValidId.toInt_eq {v : BitVec 32} (h : ValidId v) : v.toInt = (v.toNat : ℤ) := h.both.2

/-- A valid id is its own clamp. -/
theorem clampId_val {v : BitVec 32} (h : ValidId v) : (clampId v).val = v.toNat := by
  have hlt := h.toNat_lt
  have he := h.toInt_eq
  show min v.toInt.toNat 9999 = v.toNat
  rw [he, Int.toNat_natCast]
  omega

/-- Two valid ids with one clamp are one id. -/
theorem clampId_inj {v v' : BitVec 32} (h : ValidId v) (h' : ValidId v') (e : clampId v = clampId v') : v = v' := by
  apply BitVec.eq_of_toNat_eq
  rw [← clampId_val h, ← clampId_val h', e]

/-- A valid id is not negative: the signed test `id < 0` answers 0. -/
theorem ValidId.slt_zero {v : BitVec 32} (h : ValidId v) : IntOp.cmpi .slt v 0#32 = 0#1 := by
  have h0 := h.1
  show BitVec.ofBool (v.slt 0#32) = 0#1
  rw [ofBool_zero, BitVec.slt, toInt_zero32, decide_eq_false_iff_not]
  omega

theorem ValidId.sge_zero {v : BitVec 32} (h : ValidId v) : IntOp.cmpi .sge v 0#32 = 1#1 := by
  have h0 := h.1
  show BitVec.ofBool ((0#32 : BitVec 32).sle v) = 1#1
  rw [ofBool_one, BitVec.sle, toInt_zero32, decide_eq_true_eq]
  exact h0

theorem ValidId.sle_last {v : BitVec 32} (h : ValidId v) : IntOp.cmpi .sle v 9999#32 = 1#1 := by
  have h1 := h.2
  show BitVec.ofBool (v.sle 9999#32) = 1#1
  rw [ofBool_one, BitVec.sle, toInt_last32, decide_eq_true_eq]
  omega

/-- The two range tests of the precondition, both answering 1, say the id is valid. -/
theorem validId_of_tests {v : BitVec 32} (h0 : IntOp.cmpi .sge v 0#32 = 1#1) (h1 : IntOp.cmpi .slt v 10000#32 = 1#1) :
    ValidId v := by
  change BitVec.ofBool ((0#32 : BitVec 32).sle v) = 1#1 at h0
  change BitVec.ofBool (v.slt 10000#32) = 1#1 at h1
  rw [ofBool_one, BitVec.sle, toInt_zero32, decide_eq_true_eq] at h0
  rw [ofBool_one, BitVec.slt, toInt_count32, decide_eq_true_eq] at h1
  exact ⟨h0, h1⟩

end Cert.Knn

end
-- ==== Proof.RefScore.lean ====
/-
  The reference computes the score: on valid ids its masked double gather, summed over the seen slots, is
  `score` index by index.
-/
import proofs.«417806_j46179488367358_1_alg».proof.Proof.RefRun
import proofs.«417806_j46179488367358_1_alg».proof.Proof.Score
import proofs.«417806_j46179488367358_1_alg».proof.Proof.Ids
import Idealize.ShloMosaic.PureOps.Ideal.Laws
import Idealize.ShloMosaic.Lib.Pipeline.Value
import Idealize.ShloMosaic.Lib.IdealHost

noncomputable section

namespace Cert.ReferenceIdeal.RefValue

open Cert.ReferenceIdeal Cert.ReferenceIdeal.Gen Cert.Knn Idealize.ShloMosaic Idealize.ShloMosaic.ValueIdx

/-! ### The gather and the pair tensor read at an index -/

/-- The gather's dimension numbers: single entries of the table at (row, column) id pairs. -/
abbrev gd : GatherDims S10000x10000 S128x10000x100x2 S128x10000x100 :=
  gather_S10000x10000_S128x10000x100x2_S128x10000x100_n_01_n_n_01_3_11

/-- The gather of single table entries at (row, column) id pairs, read at (b, i, s): the table at the two ids of that
    pair, each read signed and clamped into [0, 9999]. -/
theorem gather_at {α : Type} (x : S10000x10000.Idx → α) (idx : IVec S128x10000x100x2 32) (b : Fin 128) (i : Fin 10000)
    (s : Fin 100) :
    Host.gather gd x idx (ix3 b i s) = x (ix2 (clampId (idx (ix4 b i s (0 : Fin 2)))) (clampId (idx (ix4 b i s (1 : Fin 2))))) := by
  unfold Host.gather
  congr 1
  funext a
  apply Fin.ext
  -- no operand axis is a batching axis, and both are collapsed: only the clamped start index is left
  have hb : ∀ a : Fin 2, a ∉ gd.operandBatchingDims := fun _ => List.not_mem_nil
  have hk : ∀ a : Fin 2, a ∉ gd.sKept := fun a h => by
    have := ((GatherDims.mem_sKept gd a).mp h).1
    revert this; revert a; decide
  -- the start-indices index read for component c of the pair is (b, i, s, c)
  have hsi : ∀ (c : Fin 2) (hc : c.val < gd.startIndexMap.length), gd.siIdx (ix3 b i s) ⟨c.val, hc⟩ = ix4 b i s c := by
    intro c hc
    funext e
    apply Fin.ext
    match e with
    | ⟨0, _⟩ => rfl
    | ⟨1, _⟩ => rfl
    | ⟨2, _⟩ => rfl
    | ⟨3, _⟩ => rfl
  match a with
  | ⟨0, _⟩ =>
    show gd.start (ix3 b i s) idx 0 + gd.batchCoord (ix3 b i s) 0 + gd.offCoord (ix3 b i s) 0 = _
    rw [GatherDims.batchCoord_eq_zero _ _ _ (hb 0), GatherDims.offCoord_eq_zero _ _ _ (hk 0), Nat.add_zero]
    unfold GatherDims.start
    rw [dif_pos (show (0 : Fin 2) ∈ gd.startIndexMap by decide)]
    refine (congrArg (fun z => min (idx z).toInt.toNat (S10000x10000.size 0 - gd.sliceSizes 0)) (hsi 0 (by decide))).trans ?_
    rfl
  | ⟨1, _⟩ =>
    show gd.start (ix3 b i s) idx 1 + gd.batchCoord (ix3 b i s) 1 + gd.offCoord (ix3 b i s) 1 = _
    rw [GatherDims.batchCoord_eq_zero _ _ _ (hb 1), GatherDims.offCoord_eq_zero _ _ _ (hk 1), Nat.add_zero]
    unfold GatherDims.start
    rw [dif_pos (show (1 : Fin 2) ∈ gd.startIndexMap by decide)]
    refine (congrArg (fun z => min (idx z).toInt.toNat (S10000x10000.size 1 - gd.sliceSizes 1)) (hsi 1 (by decide))).trans ?_
    rfl

/-- The pair tensor at component 0 of a pair is the first piece there. -/
theorem pair_fst {α : Type} (p q : S128x10000x100x1.Idx → α) (b : Fin 128) (i : Fin 10000) (s : Fin 100) :
    concatenate S128x10000x100x2 3 [⟨S128x10000x100x1, p⟩, ⟨S128x10000x100x1, q⟩]
        concatenates_S128x10000x100x1_S128x10000x100x1_S128x10000x100x2_d3 (ix4 b i s (0 : Fin 2))
      = p (ix4 b i s (0 : Fin 1)) :=
  concatenate_pair_apply_left (t := S128x10000x100x2) (s₁ := S128x10000x100x1) (s₂ := S128x10000x100x1) 3 p q
    concatenates_S128x10000x100x1_S128x10000x100x1_S128x10000x100x2_d3 (ix4 b i s (0 : Fin 2)) rfl (ix4 b i s (0 : Fin 1))
    fun e =>
      match e with
      | ⟨0, _⟩ => rfl
      | ⟨1, _⟩ => rfl
      | ⟨2, _⟩ => rfl
      | ⟨3, _⟩ => rfl

/-- The pair tensor at component 1 of a pair is the second piece there. -/
theorem pair_snd {α : Type} (p q : S128x10000x100x1.Idx → α) (b : Fin 128) (i : Fin 10000) (s : Fin 100) :
    concatenate S128x10000x100x2 3 [⟨S128x10000x100x1, p⟩, ⟨S128x10000x100x1, q⟩]
        concatenates_S128x10000x100x1_S128x10000x100x1_S128x10000x100x2_d3 (ix4 b i s (1 : Fin 2))
      = q (ix4 b i s (0 : Fin 1)) :=
  concatenate_pair_apply_right (t := S128x10000x100x2) (s₁ := S128x10000x100x1) (s₂ := S128x10000x100x1) 3 p q
    concatenates_S128x10000x100x1_S128x10000x100x1_S128x10000x100x2_d3 (ix4 b i s (1 : Fin 2)) rfl rfl (ix4 b i s (0 : Fin 1))
    (fun e he =>
      match e, he with
      | ⟨0, _⟩, _ => rfl
      | ⟨1, _⟩, _ => rfl
      | ⟨2, _⟩, _ => rfl
      | ⟨3, _⟩, he => absurd rfl he)
    rfl

/-! ### The program's five broadcasts read at an index -/

section Broadcasts
variable {α : Type}

/-- [batch, candidate] → [batch, candidate, 1]. -/
theorem bcast_cand1 (x : S128x10000.Idx → α) (b : Fin 128) (i : Fin 10000) :
    broadcastInDim S128x10000x1 ![0, 1] bcast_S128x10000_S128x10000x1_0_1 x (ix3 b i (0 : Fin 1)) = x (ix2 b i) :=
  broadcastInDim_apply _ _ _ _ (ix2 b i) fun a => match a with | ⟨0, _⟩ => rfl | ⟨1, _⟩ => rfl

/-- [batch, slot] → [batch, 1, slot]. -/
theorem bcast_slot1 (x : S128x100.Idx → α) (b : Fin 128) (s : Fin 100) :
    broadcastInDim S128x1x100 ![0, 2] bcast_S128x100_S128x1x100_0_2 x (ix3 b (0 : Fin 1) s) = x (ix2 b s) :=
  broadcastInDim_apply _ _ _ _ (ix2 b s) fun a => match a with | ⟨0, _⟩ => rfl | ⟨1, _⟩ => rfl

/-- [batch, candidate, 1] → [batch, candidate, slot]: the same along the slots. -/
theorem bcast_cand (x : S128x10000x1.Idx → α) (b : Fin 128) (i : Fin 10000) (s : Fin 100) :
    broadcastInDim S128x10000x100 ![0, 1, 2] bcast_S128x10000x1_S128x10000x100_0_1_2 x (ix3 b i s) = x (ix3 b i (0 : Fin 1)) :=
  broadcastInDim_apply _ _ _ _ (ix3 b i (0 : Fin 1)) fun a => match a with | ⟨0, _⟩ => rfl | ⟨1, _⟩ => rfl | ⟨2, _⟩ => rfl

/-- [batch, 1, slot] → [batch, candidate, slot]: the same along the candidates. -/
theorem bcast_slot (x : S128x1x100.Idx → α) (b : Fin 128) (i : Fin 10000) (s : Fin 100) :
    broadcastInDim S128x10000x100 ![0, 1, 2] bcast_S128x1x100_S128x10000x100_0_1_2 x (ix3 b i s) = x (ix3 b (0 : Fin 1) s) :=
  broadcastInDim_apply _ _ _ _ (ix3 b (0 : Fin 1) s) fun a => match a with | ⟨0, _⟩ => rfl | ⟨1, _⟩ => rfl | ⟨2, _⟩ => rfl

/-- [batch, candidate, slot] → [batch, candidate, slot, 1]. -/
theorem bcast_last (x : S128x10000x100.Idx → α) (b : Fin 128) (i : Fin 10000) (s : Fin 100) :
    broadcastInDim S128x10000x100x1 ![0, 1, 2] bcast_S128x10000x100_S128x10000x100x1_0_1_2 x (ix4 b i s (0 : Fin 1)) = x (ix3 b i s) :=
  broadcastInDim_apply _ _ _ _ (ix3 b i s) fun a => match a with | ⟨0, _⟩ => rfl | ⟨1, _⟩ => rfl | ⟨2, _⟩ => rfl

end Broadcasts

/-! ### The two id tensors and the mask read at an index -/

/-- An id as the program prepares it for the gather: 10000 added when it reads negative. -/
def wrapId (v : BitVec 32) : BitVec 32 := Scalar.select (IntOp.cmpi .slt v 0#32) (IntOp.addi v 10000#32) v

/-- A valid id is not negative, so it is left as it is. -/
theorem wrapId_valid {v : BitVec 32} (h : ValidId v) : wrapId v = v := by
  unfold wrapId
  rw [h.slt_zero, select_zero]

/-- The row coordinate of the pair (b, i, s) is candidate i's id, wrapped. -/
theorem rowIds_apply (item : IVec S128x10000 32) (b : Fin 128) (i : Fin 10000) (s : Fin 100) :
    rowIds item (ix4 b i s (0 : Fin 1)) = wrapId (item (ix2 b i)) := by
  unfold rowIds
  rw [bcast_last, bcast_cand]
  show Scalar.select (IntOp.cmpi .slt (broadcastInDim S128x10000x1 ![0, 1] bcast_S128x10000_S128x10000x1_0_1 item (ix3 b i (0 : Fin 1))) 0#32)
      (IntOp.addi (broadcastInDim S128x10000x1 ![0, 1] bcast_S128x10000_S128x10000x1_0_1 item (ix3 b i (0 : Fin 1))) 10000#32)
      (broadcastInDim S128x10000x1 ![0, 1] bcast_S128x10000_S128x10000x1_0_1 item (ix3 b i (0 : Fin 1))) = _
  rw [bcast_cand1]
  rfl

/-- The column coordinate of the pair (b, i, s) is slot s's seen id, wrapped. -/
theorem colIds_apply (seen : IVec S128x100 32) (b : Fin 128) (i : Fin 10000) (s : Fin 100) :
    colIds seen (ix4 b i s (0 : Fin 1)) = wrapId (seen (ix2 b s)) := by
  unfold colIds
  rw [bcast_last, bcast_slot]
  show Scalar.select (IntOp.cmpi .slt (broadcastInDim S128x1x100 ![0, 2] bcast_S128x100_S128x1x100_0_2 seen (ix3 b (0 : Fin 1) s)) 0#32)
      (IntOp.addi (broadcastInDim S128x1x100 ![0, 2] bcast_S128x100_S128x1x100_0_2 seen (ix3 b (0 : Fin 1) s)) 10000#32)
      (broadcastInDim S128x1x100 ![0, 2] bcast_S128x100_S128x1x100_0_2 seen (ix3 b (0 : Fin 1) s)) = _
  rw [bcast_slot1]
  rfl

/-- An OR over a finite family of one-bit words, started at 0, is 1 exactly when some member is. -/
theorem fold_ori_eq_one {ι : Type} (S : Finset ι) (f : ι → BitVec 1) :
    S.fold IntOp.ori 0#1 f = 1#1 ↔ ∃ k ∈ S, f k = 1#1 := by
  induction S using Finset.cons_induction with
  | empty => simp
  | cons a S ha ih =>
    rw [Finset.fold_cons, IntOp.ori_eq_one, ih]
    constructor
    · rintro (h | ⟨k, hk, h⟩)
      · exact ⟨a, Finset.mem_cons_self a S, h⟩
      · exact ⟨k, Finset.mem_cons.mpr (Or.inr hk), h⟩
    · rintro ⟨k, hk, h⟩
      rcases Finset.mem_cons.mp hk with rfl | hk
      · exact Or.inl h
      · exact Or.inr ⟨k, hk, h⟩

/-- The mask at (b, s) is 1 exactly when slot s's seen id is one of row b's candidates. -/
theorem candMask_apply (item : IVec S128x10000 32) (seen : IVec S128x100 32) (b : Fin 128) (s : Fin 100) :
    candMask item seen (ix2 b s) = 1#1 ↔ IsCand item b (seen (ix2 b s)) := by
  have h : S128x10000x100.Reduces [1] S128x100 := by decide
  -- the comparison tensor along the candidate axis at (b, s): candidate k's id against slot s's
  have key : ∀ k : Fin 10000,
      cmpi .eq (broadcastInDim S128x10000x100 ![0, 1, 2] bcast_S128x10000x1_S128x10000x100_0_1_2
            (broadcastInDim S128x10000x1 ![0, 1] bcast_S128x10000_S128x10000x1_0_1 item))
          (broadcastInDim S128x10000x100 ![0, 1, 2] bcast_S128x1x100_S128x10000x100_0_1_2
            (broadcastInDim S128x1x100 ![0, 2] bcast_S128x100_S128x1x100_0_2 seen)) (h.lift (ix2 b s) k)
        = IntOp.cmpi .eq (item (ix2 b k)) (seen (ix2 b s)) := by
    intro k
    have hl : h.lift (ix2 b s) k = ix3 b k s := by
      funext e
      apply Fin.ext
      match e with
      | ⟨0, _⟩ => rfl
      | ⟨1, _⟩ => rfl
      | ⟨2, _⟩ => rfl
    rw [hl]
    show IntOp.cmpi .eq (broadcastInDim S128x10000x100 ![0, 1, 2] bcast_S128x10000x1_S128x10000x100_0_1_2
            (broadcastInDim S128x10000x1 ![0, 1] bcast_S128x10000_S128x10000x1_0_1 item) (ix3 b k s))
          (broadcastInDim S128x10000x100 ![0, 1, 2] bcast_S128x1x100_S128x10000x100_0_1_2
            (broadcastInDim S128x1x100 ![0, 2] bcast_S128x100_S128x1x100_0_2 seen) (ix3 b k s)) = _
    rw [bcast_cand, bcast_cand1, bcast_slot, bcast_slot1]
  unfold candMask
  rw [Host.reduce_eq_fold_single IntOp.ori _ _ reducesTo_S128x10000x100_S128x100_d1 h h_S_ (ix2 b s)]
  refine (fold_ori_eq_one _ _).trans ?_
  constructor
  · rintro ⟨k, -, hk⟩
    exact ⟨k, IntOp.cmpi_eq.mp ((key k).symm.trans hk)⟩
  · rintro ⟨k, hk⟩
    exact ⟨k, Finset.mem_univ _, (key k).trans (IntOp.cmpi_eq.mpr hk)⟩

/-! ### The result -/

/-- The result's composed term with its three named parts folded. -/
theorem refResult_eq {F : FTy → Type} [FloatOps F] (item : IVec S128x10000 32) (seen : IVec S128x100 32)
    (sim : FVec F S10000x10000 .f32) :
    refResult item seen sim
      = Host.reduceAdd (select (broadcastInDim S128x10000x100 ![0, 1, 2] bcast_S128x1x100_S128x10000x100_0_1_2
            (broadcastInDim S128x1x100 ![0, 2] bcast_S128x100_S128x1x100_0_2 (candMask item seen)))
          (broadcastInDim S128x10000x100 ![] bcast_S_S128x10000x100 (id (constant S_ .f32 0x00000000#32)))
          (Host.gather gd sim (concatenate S128x10000x100x2 3 [⟨S128x10000x100x1, rowIds item⟩, ⟨S128x10000x100x1, colIds seen⟩]
            concatenates_S128x10000x100x1_S128x10000x100x1_S128x10000x100x2_d3)))
        (constant S_ .f32 0x00000000#32) reducesTo_S128x10000x100_S128x10000_d2 h_S_ := rfl

/-- A select between zero and a value, on a bit that is 1 exactly when `P` holds, is the `if` on `P` (however `P` is
    decided). -/
theorem select_zero_eq_ite (c : BitVec 1) (P : Prop) {dP : Decidable P} (hc : c = 1#1 ↔ P) (x : EReal) :
    Scalar.select c 0 x = @ite EReal P dP 0 x := by
  by_cases hp : P
  · rw [hc.mpr hp, select_one, if_pos hp]
  · rw [eq_zero_of_ne_one (fun e => hp (hc.mp e)), select_zero, if_neg hp]

/-- On valid candidate and seen ids the reference's result is the score. -/
theorem refResult_eq_score (item : IVec SCand 32) (seen : IVec SSeen 32) (sim : FVec Ideal SSim .f32)
    (hitem : ∀ j, ValidId (item j)) (hseen : ∀ j, ValidId (seen j)) :
    refResult (F := Ideal) item seen sim = score item seen sim := by
  have h : S128x10000x100.Reduces [2] S128x10000 := by decide
  funext j
  obtain ⟨b, i, rfl⟩ : ∃ (b : Fin 128) (i : Fin 10000), j = ix2 b i := ⟨j 0, j 1, eq_ix2 j⟩
  -- the masked, gathered tensor at (b, i, s): zero under the mask bit, else the table at the two ids
  have term : ∀ s : Fin 100,
      select (broadcastInDim S128x10000x100 ![0, 1, 2] bcast_S128x1x100_S128x10000x100_0_1_2
            (broadcastInDim S128x1x100 ![0, 2] bcast_S128x100_S128x1x100_0_2 (candMask item seen)))
          (broadcastInDim S128x10000x100 ![] bcast_S_S128x10000x100 (id (constant (F := Ideal) S_ .f32 0x00000000#32)))
          (Host.gather gd sim (concatenate S128x10000x100x2 3 [⟨S128x10000x100x1, rowIds item⟩, ⟨S128x10000x100x1, colIds seen⟩]
            concatenates_S128x10000x100x1_S128x10000x100x1_S128x10000x100x2_d3))
          (h.lift (ix2 b i) s)
        = Scalar.select (candMask item seen (ix2 b s)) 0 (sim (ix2 (clampId (item (ix2 b i))) (clampId (seen (ix2 b s))))) := by
    intro s
    have hl : h.lift (ix2 b i) s = ix3 b i s := by
      funext e
      apply Fin.ext
      match e with
      | ⟨0, _⟩ => rfl
      | ⟨1, _⟩ => rfl
      | ⟨2, _⟩ => rfl
    have hz : broadcastInDim S128x10000x100 ![] bcast_S_S128x10000x100 (id (constant (F := Ideal) S_ .f32 0x00000000#32)) (ix3 b i s)
        = 0 := Ideal.ofBits_zero_f32
    rw [hl, select_apply, bcast_slot, bcast_slot1, hz, gather_at, pair_fst, pair_snd, rowIds_apply, colIds_apply,
      wrapId_valid (hitem _), wrapId_valid (hseen _)]
  rw [refResult_eq, hostReduceAdd_apply, Ideal.hostReduceAdd_single reducesTo_S128x10000x100_S128x10000_d2 h]
  rw [show constant (F := Ideal) S_ .f32 0x00000000#32 (Shape.Idx.first h_S_) = 0 from Ideal.ofBits_zero_f32, zero_add]
  unfold score
  refine Finset.sum_congr rfl fun s _ => (term s).trans ?_
  exact select_zero_eq_ite _ _ (candMask_apply item seen b s) _

end Cert.ReferenceIdeal.RefValue

end
-- ==== Proof.Domain.lean ====
/-
  What the precondition says of the argument arrays: every similarity is a real number, and every candidate id
  and every seen id is a valid item id.
-/
import proofs.«417806_j46179488367358_1_alg».proof.Pre_finite_inputs
import proofs.«417806_j46179488367358_1_alg».proof.Proof.Score
import proofs.«417806_j46179488367358_1_alg».proof.Proof.Ids
import Idealize.ShloMosaic.PureOps.Ideal
import Idealize.ShloMosaic.Lib.ReduceAll

noncomputable section

namespace Cert.Knn

open Idealize.ShloMosaic

variable [Cert.Pre_finite_inputs.Facts]

/-- `all` read back. A reduction by `and` over every axis has a result of one index; if that result is 1,
    the reduced array holds a 1 at each of its indices. -/
private theorem all_ones {s : Shape} {axes : List (Fin s.rank)} (x : s.Idx → BitVec 1)
    (init : Cert.Pre_finite_inputs.S_.Idx → BitVec 1) (hr : s.ReducesTo axes Cert.Pre_finite_inputs.S_)
    (hu : 0 < Cert.Pre_finite_inputs.S_.numel)
    (e : Host.reduce IntOp.andi x init hr hu ValueIdx.ix0 = 1#1) (i : s.Idx) : x i = 1#1 := by
  haveI : Subsingleton Cert.Pre_finite_inputs.S_.Idx := ⟨fun a b => funext fun d => d.elim0⟩
  exact Host.reduce_andi_all x init hr hu ValueIdx.ix0 e i

/-- The precondition taken apart. It is the `and` of three all-reductions, so each of them is 1, so each reduced
    array is 1 everywhere. An entry of the first is the test |sim| < +∞ (the scalar +∞ broadcast reads as +∞ at
    every index); an entry of the second and of the third is the `and` of the two range tests 0 ≤ id and
    id < 10000 (the scalars 0 and 10000 broadcast read as themselves at every index). -/
private theorem pre_split {user : IVec Cert.Pre_finite_inputs.S128 32} {item : IVec SCand 32} {seen : IVec SSeen 32}
    {sim : FVec Ideal SSim .f32}
    (h : Cert.Pre_finite_inputs.fn (F := Ideal) user item seen sim = fun _ => 1#1) :
    (∀ i, Ideal.cmp .olt (max (sim i : EReal) (-(sim i : EReal))) (Ideal.ofBits .f32 0x7F800000#32) = 1#1)
    ∧ (∀ j, IntOp.andi (IntOp.cmpi .sge (item j) 0#32) (IntOp.cmpi .slt (item j) 10000#32) = 1#1)
    ∧ (∀ j, IntOp.andi (IntOp.cmpi .sge (seen j) 0#32) (IntOp.cmpi .slt (seen j) 10000#32) = 1#1) := by
  have h0 := congrFun h ValueIdx.ix0
  dsimp only [Cert.Pre_finite_inputs.fn, Cert.Pre_finite_inputs.fn_part1] at h0
  obtain ⟨h12, h3⟩ := IntOp.andi_eq_one.1 h0
  obtain ⟨h1, h2⟩ := IntOp.andi_eq_one.1 h12
  exact ⟨fun i => all_ones _ _ _ _ h1 i, fun j => all_ones _ _ _ _ h2 j, fun j => all_ones _ _ _ _ h3 j⟩

/-- An extended real whose absolute value max x (−x) is below +∞ is neither +∞ nor −∞: it is a real number. -/
private theorem real_of_abs_lt_top (x : EReal) (hx : max x (-x) < ⊤) : ∃ r : ℝ, x = (r : EReal) := by
  rw [max_lt_iff] at hx
  induction x using EReal.rec with
  | bot => exact absurd hx.2 (by simp)
  | coe r => exact ⟨r, rfl⟩
  | top => exact absurd hx.1 (lt_irrefl _)

theorem sim_real_of_pre {user : IVec Cert.Pre_finite_inputs.S128 32} {item : IVec SCand 32} {seen : IVec SSeen 32}
    {sim : FVec Ideal SSim .f32}
    (h : Cert.Pre_finite_inputs.fn (F := Ideal) user item seen sim = fun _ => 1#1) :
    ∀ i, ∃ r : ℝ, sim i = (r : EReal) := by
  intro i
  have hi := (pre_split h).1 i
  -- the pattern 0x7F800000 denotes +∞
  have htop : Ideal.ofBits .f32 0x7F800000#32 = (⊤ : EReal) := by simp [Ideal.ofBits, Ideal.ieee]
  rw [htop] at hi
  -- the ordered test "less than" answers 1 exactly when the order relation holds
  change BitVec.ofBool (decide (max (sim i : EReal) (-(sim i : EReal)) < ⊤)) = 1#1 at hi
  have hlt : max (sim i : EReal) (-(sim i : EReal)) < ⊤ := by
    by_contra hn
    rw [decide_eq_false hn] at hi
    exact absurd hi (by decide)
  exact real_of_abs_lt_top (sim i) hlt

theorem item_valid_of_pre {user : IVec Cert.Pre_finite_inputs.S128 32} {item : IVec SCand 32} {seen : IVec SSeen 32}
    {sim : FVec Ideal SSim .f32}
    (h : Cert.Pre_finite_inputs.fn (F := Ideal) user item seen sim = fun _ => 1#1) :
    ∀ j, ValidId (item j) := by
  intro j
  obtain ⟨hge, hlt⟩ := IntOp.andi_eq_one.1 ((pre_split h).2.1 j)
  exact validId_of_tests hge hlt

theorem seen_valid_of_pre {user : IVec Cert.Pre_finite_inputs.S128 32} {item : IVec SCand 32} {seen : IVec SSeen 32}
    {sim : FVec Ideal SSim .f32}
    (h : Cert.Pre_finite_inputs.fn (F := Ideal) user item seen sim = fun _ => 1#1) :
    ∀ j, ValidId (seen j) := by
  intro j
  obtain ⟨hge, hlt⟩ := IntOp.andi_eq_one.1 ((pre_split h).2.2 j)
  exact validId_of_tests hge hlt

end Cert.Knn

end
-- ==== Proof.KernelArrays.lean ====
/-
  The kernel's arrays by name: the three argument arrays it reads as launched, the coefficient matrix the host
  lines before the matrix product leave, and the product array after the last grid point.
-/
import proofs.«417806_j46179488367358_1_alg».proof.Proof.Gen.KernelIdeal.Frame
import proofs.«417806_j46179488367358_1_alg».proof.Proof.Score

noncomputable section

namespace Cert.KernelIdeal.KnnValue

open Cert.KernelIdeal Cert.KernelIdeal.Gen Cert.Knn
open Idealize.ShloMosaic Idealize.ShloMosaic.TcCoe Idealize.ShloMosaic.ValueIdx Idealize.SL.Sem
open Idealize.ShloMosaic.Pipeline (Dat Cfg)

variable (m : (ℓ : Loc nD τ sig) → Buf (Elt Ideal) ℓ)

/-- Candidate ids as launched. -/
abbrev itemArr (c : Dev nD) : IVec SCand 32 := m ((c : Thread nD τ).loc main_arg1)
/-- Seen ids as launched. -/
abbrev seenArr (c : Dev nD) : IVec SSeen 32 := m ((c : Thread nD τ).loc main_arg2)
/-- The similarity table as launched. -/
abbrev simArr (c : Dev nD) : SSim.Idx → EReal := m ((c : Thread nD τ).loc main_arg3)
/-- The coefficient matrix the matrix product reads: what the host lines before it leave in its second operand. -/
abbrev coefArr (c : Dev nD) : SCand.Idx → EReal := V m c main_v38
/-- The product array [item, batch] after the last grid point. -/
abbrev prodArr (c : Dev nD) : SProd.Idx → EReal := (dats m 0 c).arrAt 2 cfg0.N

end Cert.KernelIdeal.KnnValue

end
-- ==== Proof.Histogram.lean ====
/-
  The host lines before the matrix product build the coefficient matrix: two scatter-adds of ones count, per row,
  how often each item occurs among the candidates and among the seen slots, and the select keeps the seen count
  where the candidate count is zero.

  The road. (1) A scatter-add whose index pairs are [row, position, 2] and whose windows are single elements adds
  update (p, q) at the element whose two coordinates are the pair's two words read signed; a pair with a word out of
  range lands nowhere. So the scatter-add of ones into zeros holds at (b, v) the NUMBER of pairs that land there.
  (2) Here a pair's first word is the row number p and its second the id at (p, q), both passed through the wrap of
  a negative index by the extent, which leaves a valid id as it is; the pairs landing at (b, v) are then row b's positions whose id
  is v. (3) The lines are read in three stretches, cut before each concatenate, each stretch over any contents
  before it. (4) At (b, v) the select answers 0 when the candidate count is positive, that is when v is a candidate
  of row b, and the seen count otherwise: the coefficient matrix.
-/
import proofs.«417806_j46179488367358_1_alg».proof.Proof.KernelArrays
import proofs.«417806_j46179488367358_1_alg».proof.Proof.Ids
import Idealize.ShloMosaic.PureOps.Ideal.Laws
import Idealize.ShloMosaic.Lib.StableHlo.Run
import Idealize.ShloMosaic.Lib.IdealHost
import Idealize.ShloMosaic.Lib.Pipeline.Value
import Idealize.ShloMosaic.Lib.Pipeline.Frame

noncomputable section

namespace Cert.KernelIdeal.KnnValue

open Cert.KernelIdeal Cert.KernelIdeal.Gen Cert.Knn
open Idealize.ShloMosaic Idealize.ShloMosaic.TcCoe Idealize.ShloMosaic.ValueIdx Idealize.SL.Sem
open Idealize.ShloMosaic.Pipeline (Dat Cfg)
open scoped BigOperators

namespace Histogram

/-! ## A scatter-add at index pairs -/

/-- The dimension numbers of a scatter whose index pairs name single elements: operand [A, B], index pairs [P, Q, 2],
    updates [P, Q]; both operand axes are inserted window axes and a pair's two words go to axes 0 and 1. -/
abbrev pairDims (A B P Q : Nat) (wf : ScatterDims.WF ⟨2, ![A, B]⟩ ⟨3, ![P, Q, 2]⟩ ⟨2, ![P, Q]⟩ [] [0, 1] [0, 1] 2) :
    ScatterDims ⟨2, ![A, B]⟩ ⟨3, ![P, Q, 2]⟩ ⟨2, ![P, Q]⟩ where
  updateWindowDims := []
  insertedWindowDims := [0, 1]
  scatterDimsToOperandDims := [0, 1]
  indexVectorDim := 2
  wf := wf

section
variable {A B P Q w : Nat} (wf : ScatterDims.WF ⟨2, ![A, B]⟩ ⟨3, ![P, Q, 2]⟩ ⟨2, ![P, Q]⟩ [] [0, 1] [0, 1] 2)

theorem pairDims_window (j : (⟨2, ![P, Q]⟩ : Shape).Idx) (a : Fin 2) : (pairDims A B P Q wf).window j a = 0 := by
  unfold ScatterDims.window
  rw [dif_neg]
  show a ∉ (List.finRange 2).filter (· ∉ ([0, 1] : List (Fin 2)))
  revert a; decide

theorem pairDims_start0 (j : (⟨2, ![P, Q]⟩ : Shape).Idx) (idx : IVec ⟨3, ![P, Q, 2]⟩ w) :
    (pairDims A B P Q wf).start j idx (0 : Fin 2) = (idx (ix3 (j 0) (j 1) 0)).toInt := by
  unfold ScatterDims.start
  rw [dif_pos (show (0 : Fin 2) ∈ ([0, 1] : List (Fin 2)) by decide)]
  congr 2
  funext b; refine Fin.ext ?_
  match b with
  | ⟨0, _⟩ => rfl
  | ⟨1, _⟩ => rfl
  | ⟨2, _⟩ => rfl

theorem pairDims_start1 (j : (⟨2, ![P, Q]⟩ : Shape).Idx) (idx : IVec ⟨3, ![P, Q, 2]⟩ w) :
    (pairDims A B P Q wf).start j idx (1 : Fin 2) = (idx (ix3 (j 0) (j 1) 1)).toInt := by
  unfold ScatterDims.start
  rw [dif_pos (show (1 : Fin 2) ∈ ([0, 1] : List (Fin 2)) by decide)]
  congr 2
  funext b; refine Fin.ext ?_
  match b with
  | ⟨0, _⟩ => rfl
  | ⟨1, _⟩ => rfl
  | ⟨2, _⟩ => rfl

/-- Where a pair lands: update `j` is added at `i` exactly when its two index words, read signed, are `i`'s coordinates. -/
theorem pairDims_resultIdx (j : (⟨2, ![P, Q]⟩ : Shape).Idx) (idx : IVec ⟨3, ![P, Q, 2]⟩ w) (i : (⟨2, ![A, B]⟩ : Shape).Idx) :
    (pairDims A B P Q wf).resultIdx? j idx = some i ↔
      (idx (ix3 (j 0) (j 1) 0)).toInt = ((i 0).val : ℤ) ∧ (idx (ix3 (j 0) (j 1) 1)).toInt = ((i 1).val : ℤ) := by
  have hs0 := pairDims_start0 wf j idx
  have hs1 := pairDims_start1 wf j idx
  have hw := pairDims_window wf j
  have hi0 : (i 0).val < A := (i 0).isLt
  have hi1 : (i 1).val < B := (i 1).isLt
  unfold ScatterDims.resultIdx?
  split
  · rename_i h
    have h0 : 0 ≤ (pairDims A B P Q wf).start j idx (0 : Fin 2) + (pairDims A B P Q wf).window j (0 : Fin 2) ∧
        (pairDims A B P Q wf).start j idx (0 : Fin 2) + (pairDims A B P Q wf).window j (0 : Fin 2) < (A : ℤ) := h 0
    have h1 : 0 ≤ (pairDims A B P Q wf).start j idx (1 : Fin 2) + (pairDims A B P Q wf).window j (1 : Fin 2) ∧
        (pairDims A B P Q wf).start j idx (1 : Fin 2) + (pairDims A B P Q wf).window j (1 : Fin 2) < (B : ℤ) := h 1
    rw [hw, hs0] at h0
    rw [hw, hs1] at h1
    constructor
    · intro e
      have e' := Option.some.inj e
      have e0 : (((pairDims A B P Q wf).start j idx (0 : Fin 2) + ((pairDims A B P Q wf).window j (0 : Fin 2) : ℕ)).toNat) = (i 0).val :=
        congrArg (fun f : (⟨2, ![A, B]⟩ : Shape).Idx => (f 0).val) e'
      have e1 : (((pairDims A B P Q wf).start j idx (1 : Fin 2) + ((pairDims A B P Q wf).window j (1 : Fin 2) : ℕ)).toNat) = (i 1).val :=
        congrArg (fun f : (⟨2, ![A, B]⟩ : Shape).Idx => (f 1).val) e'
      rw [hw, hs0] at e0
      rw [hw, hs1] at e1
      omega
    · rintro ⟨e0, e1⟩
      congr 1
      funext a
      match a with
      | ⟨0, _⟩ =>
        refine Fin.ext ?_
        show ((pairDims A B P Q wf).start j idx (0 : Fin 2) + ((pairDims A B P Q wf).window j (0 : Fin 2) : ℕ)).toNat = (i 0).val
        rw [hw, hs0]; omega
      | ⟨1, _⟩ =>
        refine Fin.ext ?_
        show ((pairDims A B P Q wf).start j idx (1 : Fin 2) + ((pairDims A B P Q wf).window j (1 : Fin 2) : ℕ)).toNat = (i 1).val
        rw [hw, hs1]; omega
  · rename_i h
    constructor
    · intro e; exact absurd e (by simp)
    · rintro ⟨e0, e1⟩
      exfalso; apply h; intro a
      match a with
      | ⟨0, _⟩ =>
        show 0 ≤ (pairDims A B P Q wf).start j idx (0 : Fin 2) + ((pairDims A B P Q wf).window j (0 : Fin 2) : ℕ) ∧
          (pairDims A B P Q wf).start j idx (0 : Fin 2) + ((pairDims A B P Q wf).window j (0 : Fin 2) : ℕ) < (A : ℤ)
        rw [hw, hs0]; omega
      | ⟨1, _⟩ =>
        show 0 ≤ (pairDims A B P Q wf).start j idx (1 : Fin 2) + ((pairDims A B P Q wf).window j (1 : Fin 2) : ℕ) ∧
          (pairDims A B P Q wf).start j idx (1 : Fin 2) + ((pairDims A B P Q wf).window j (1 : Fin 2) : ℕ) < (B : ℤ)
        rw [hw, hs1]; omega

/-- The scatter-add of ones at index pairs into zeros holds, at each element, the number of pairs that land there. -/
theorem scatter_ones_count (idx : IVec ⟨3, ![P, Q, 2]⟩ w) (x : (⟨2, ![A, B]⟩ : Shape).Idx → EReal)
    (u : (⟨2, ![P, Q]⟩ : Shape).Idx → EReal) (b : Fin A) (v : Fin B) (hx : x (ix2 b v) = 0) (hu : ∀ j, u j = 1) :
    Ideal.hostScatterAdd (pairDims A B P Q wf) x idx u (ix2 b v)
      = (((Finset.univ.filter fun j : (⟨2, ![P, Q]⟩ : Shape).Idx =>
          (idx (ix3 (j 0) (j 1) 0)).toInt = (b.val : ℤ) ∧ (idx (ix3 (j 0) (j 1) 1)).toInt = (v.val : ℤ)).card : ℝ) : EReal) := by
  unfold Ideal.hostScatterAdd
  rw [hx, zero_add, Finset.filter_congr (fun j _ => pairDims_resultIdx wf j idx (ix2 b v)), Finset.sum_congr rfl (fun j _ => hu j),
    Finset.sum_const, nsmul_one, EReal.coe_natCast]
  rfl

end

/-- A row number below 128, as a word, is a valid id and reads back as itself. -/
theorem rowWord_valid (p : Fin 128) : ValidId (BitVec.ofNat 32 p.val) ∧ (BitVec.ofNat 32 p.val).toNat = p.val := by
  have hp := p.isLt
  have hn : (BitVec.ofNat 32 p.val).toNat = p.val := by rw [BitVec.toNat_ofNat]; omega
  have ht := BitVec.toInt_eq_toNat_of_lt (x := BitVec.ofNat 32 p.val) (by rw [hn]; omega)
  exact ⟨⟨by rw [ht, hn]; omega, by rw [ht, hn]; omega⟩, hn⟩

/-- With the row number in a pair's first word and a valid id in its second, the pairs that land at (b, v) are row b's
    positions holding the id v. -/
theorem card_pairs {Q B : ℕ} (idx : IVec ⟨3, ![128, Q, 2]⟩ 32) (ids : IVec ⟨2, ![128, Q]⟩ 32)
    (h0 : ∀ (p : Fin 128) (q : Fin Q), idx (ix3 p q 0) = BitVec.ofNat 32 p.val)
    (h1 : ∀ (p : Fin 128) (q : Fin Q), idx (ix3 p q 1) = ids (ix2 p q))
    (hv : ∀ (p : Fin 128) (q : Fin Q), ValidId (ids (ix2 p q))) (b : Fin 128) (v : Fin B) :
    (Finset.univ.filter fun j : (⟨2, ![128, Q]⟩ : Shape).Idx =>
        (idx (ix3 (j 0) (j 1) 0)).toInt = (b.val : ℤ) ∧ (idx (ix3 (j 0) (j 1) 1)).toInt = (v.val : ℤ)).card
      = (Finset.univ.filter fun q : Fin Q => (ids (ix2 b q)).toNat = v.val).card := by
  have key : ∀ (p : Fin 128) (q : Fin Q),
      ((idx (ix3 p q 0)).toInt = (b.val : ℤ) ∧ (idx (ix3 p q 1)).toInt = (v.val : ℤ))
        ↔ (p = b ∧ (ids (ix2 p q)).toNat = v.val) := by
    intro p q
    obtain ⟨hr, hn⟩ := rowWord_valid p
    rw [h0, h1, hr.toInt_eq, hn, (hv p q).toInt_eq]
    constructor
    · rintro ⟨e0, e1⟩; exact ⟨Fin.ext (by omega), by omega⟩
    · rintro ⟨rfl, e1⟩; exact ⟨rfl, by omega⟩
  refine Finset.card_bij (fun j _ => (j 1 : Fin Q)) ?_ ?_ ?_
  · intro j hj
    obtain ⟨rfl, e1⟩ := (key (j 0) (j 1)).mp (Finset.mem_filter.mp hj).2
    exact Finset.mem_filter.mpr ⟨Finset.mem_univ _, e1⟩
  · intro j hj j' hj' e
    obtain ⟨e0, _⟩ := (key (j 0) (j 1)).mp (Finset.mem_filter.mp hj).2
    obtain ⟨e0', _⟩ := (key (j' 0) (j' 1)).mp (Finset.mem_filter.mp hj').2
    funext a
    match a with
    | ⟨0, _⟩ => exact e0.trans e0'.symm
    | ⟨1, _⟩ => exact e
  · intro q hq
    exact ⟨ix2 b q, Finset.mem_filter.mpr ⟨Finset.mem_univ _, (key b q).mpr ⟨rfl, (Finset.mem_filter.mp hq).2⟩⟩, rfl⟩

/-- The wrap of a negative index (the extent `n` added where the word is negative) leaves a valid id as it is. -/
theorem wrap_of_valid {v : BitVec 32} (h : ValidId v) (n : BitVec 32) :
    Scalar.select (IntOp.cmpi .slt v 0#32) (IntOp.addi v n) v = v := by
  rw [h.slt_zero, select_zero]

section Pairs
variable {Q : ℕ}
  (hb1 : (⟨2, ![128, 1]⟩ : Shape).BroadcastsInDim ⟨2, ![128, Q]⟩ ![0, 1])
  (hb2 : (⟨2, ![128, Q]⟩ : Shape).BroadcastsInDim ⟨3, ![128, Q, 1]⟩ ![0, 1])
  (hc : Shape.Concatenates [(⟨3, ![128, Q, 1]⟩ : Shape), ⟨3, ![128, Q, 1]⟩] ⟨3, ![128, Q, 2]⟩ 2)

/-- An array [128, Q] given a unit last axis, read at (p, q, 0). -/
theorem unitLast_apply (C : IVec ⟨2, ![128, Q]⟩ 32) (p : Fin 128) (q : Fin Q) :
    broadcastInDim ⟨3, ![128, Q, 1]⟩ ![0, 1] hb2 C (ix3 p q 0) = C (ix2 p q) := by
  refine broadcastInDim_apply ![0, 1] hb2 C (ix3 p q 0) (ix2 p q) ?_
  intro a
  match a with
  | ⟨0, _⟩ => rfl
  | ⟨1, _⟩ =>
    show q.val = if Q = 1 then 0 else q.val
    have := q.isLt
    split_ifs with h
    · omega
    · rfl

/-- A column [128, 1] spread over Q positions, read at (p, q). -/
theorem spread_apply (R : IVec ⟨2, ![128, 1]⟩ 32) (p : Fin 128) (q : Fin Q) :
    broadcastInDim ⟨2, ![128, Q]⟩ ![0, 1] hb1 R (ix2 p q) = R (ix2 p 0) := by
  refine broadcastInDim_apply ![0, 1] hb1 R (ix2 p q) (ix2 p 0) ?_
  intro a
  match a with
  | ⟨0, _⟩ => rfl
  | ⟨1, _⟩ => rfl

/-- The index pairs [row, position, 2] hold the row's word first … -/
theorem pairs_fst (R : IVec ⟨2, ![128, 1]⟩ 32) (C : IVec ⟨2, ![128, Q]⟩ 32) (p : Fin 128) (q : Fin Q) :
    concatenate ⟨3, ![128, Q, 2]⟩ 2
      [⟨⟨3, ![128, Q, 1]⟩, broadcastInDim ⟨3, ![128, Q, 1]⟩ ![0, 1] hb2 (broadcastInDim ⟨2, ![128, Q]⟩ ![0, 1] hb1 R)⟩,
       ⟨⟨3, ![128, Q, 1]⟩, broadcastInDim ⟨3, ![128, Q, 1]⟩ ![0, 1] hb2 C⟩] hc (ix3 p q 0) = R (ix2 p 0) := by
  refine (concatenate_pair_apply_left (t := ⟨3, ![128, Q, 2]⟩) (s₁ := ⟨3, ![128, Q, 1]⟩) (s₂ := ⟨3, ![128, Q, 1]⟩) (2 : Fin 3) _ _ hc
    (ix3 p q (0 : Fin 2)) rfl (ix3 p q (0 : Fin 1)) ?_).trans ?_
  · intro b
    match b with
    | ⟨0, _⟩ => rfl
    | ⟨1, _⟩ => rfl
    | ⟨2, _⟩ => rfl
  · rw [unitLast_apply hb2, spread_apply hb1]

/-- … and the position's word second. -/
theorem pairs_snd (R : IVec ⟨2, ![128, 1]⟩ 32) (C : IVec ⟨2, ![128, Q]⟩ 32) (p : Fin 128) (q : Fin Q) :
    concatenate ⟨3, ![128, Q, 2]⟩ 2
      [⟨⟨3, ![128, Q, 1]⟩, broadcastInDim ⟨3, ![128, Q, 1]⟩ ![0, 1] hb2 (broadcastInDim ⟨2, ![128, Q]⟩ ![0, 1] hb1 R)⟩,
       ⟨⟨3, ![128, Q, 1]⟩, broadcastInDim ⟨3, ![128, Q, 1]⟩ ![0, 1] hb2 C⟩] hc (ix3 p q 1) = C (ix2 p q) := by
  refine (concatenate_pair_apply_right (t := ⟨3, ![128, Q, 2]⟩) (s₁ := ⟨3, ![128, Q, 1]⟩) (s₂ := ⟨3, ![128, Q, 1]⟩) (2 : Fin 3) _ _ hc
    (ix3 p q (1 : Fin 2)) rfl rfl (ix3 p q (0 : Fin 1)) ?_ ?_).trans ?_
  · intro b hb
    match b with
    | ⟨0, _⟩ => rfl
    | ⟨1, _⟩ => rfl
    | ⟨2, _⟩ => exact absurd rfl hb
  · rfl
  · rw [unitLast_apply hb2]

end Pairs

/-! ## The host lines, in three stretches -/

variable {F : FTy → Type} [FloatOps F]

/-- The host lines up to the two columns of the candidate index pairs. -/
abbrev opsA : List (HloOp τ sig (Elt F)) := (hostOps0 (F := F)).take 21
/-- From the candidate index pairs to the two columns of the seen index pairs. -/
abbrev opsB : List (HloOp τ sig (Elt F)) := ((hostOps0 (F := F)).drop 21).take 26
/-- From the seen index pairs to the select. -/
abbrev opsC : List (HloOp τ sig (Elt F)) := (hostOps0 (F := F)).drop 47 ++ hostOps0_1

theorem ops_split : List.flatten [hostOps0 (F := F), hostOps0_1] = opsA ++ (opsB ++ opsC) := rfl

/-- Row numbers as words, one column. -/
abbrev rowWords : IVec S128x1 32 := broadcastInDim S128x1 ![0] bcast_S128_S128x1_0 (iotaInDim S128 32 0)
/-- The wrap of a negative row number by the row count. -/
abbrev wrapRows (R : IVec S128x1 32) : IVec S128x1 32 :=
  select (cmpi .slt R (broadcastInDim S128x1 ![] bcast_S_S128x1 (constantI S_ 32 0#32)))
    (addi R (broadcastInDim S128x1 ![] bcast_S_S128x1 (constantI S_ 32 128#32))) R
/-- The wrap of a negative candidate id by the item count. -/
abbrev wrapCand (X : IVec S128x10000 32) : IVec S128x10000 32 :=
  select (cmpi .slt X (broadcastInDim S128x10000 ![] bcast_S_S128x10000 (constantI S_ 32 0#32)))
    (addi X (broadcastInDim S128x10000 ![] bcast_S_S128x10000 (constantI S_ 32 10000#32))) X
/-- The wrap of a negative seen id by the item count. -/
abbrev wrapSeen (X : IVec S128x100 32) : IVec S128x100 32 :=
  select (cmpi .slt X (broadcastInDim S128x100 ![] bcast_S_S128x100 (constantI S_ 32 0#32)))
    (addi X (broadcastInDim S128x100 ![] bcast_S_S128x100 (constantI S_ 32 10000#32))) X

section StageA
variable (W : Valuation τ sig (Elt F))

theorem A_v1 : (StableHlo.after opsA W (Proc.devRef .tc main_v1) : IVec S128x1 32) = rowWords := by
  simp only [opsA, hostOps0, List.take_succ_cons, List.take_zero]
  after_results <;> rfl

theorem A_v2 : (StableHlo.after opsA W (Proc.devRef .tc main_v2) : FVec F S128x10000 .f32)
    = broadcastInDim S128x10000 ![] bcast_S_S128x10000 (constant (F := F) S_ .f32 0x00000000#32) := by
  simp only [opsA, hostOps0, List.take_succ_cons, List.take_zero]
  after_results <;> rfl

theorem A_arg2 : StableHlo.after opsA W (Proc.devRef .tc main_arg2) = W (Proc.devRef .tc main_arg2) := by
  simp only [opsA, hostOps0, List.take_succ_cons, List.take_zero]
  after_results <;> rfl

theorem A_v14 : (StableHlo.after opsA W (Proc.devRef .tc main_v14) : IVec S128x10000x1 32)
    = broadcastInDim S128x10000x1 ![0, 1] bcast_S128x10000_S128x10000x1_0_1
        (broadcastInDim S128x10000 ![0, 1] bcast_S128x1_S128x10000_0_1 (wrapRows rowWords)) := by
  simp only [opsA, hostOps0, List.take_succ_cons, List.take_zero]
  after_results <;> rfl

theorem A_v15 : (StableHlo.after opsA W (Proc.devRef .tc main_v15) : IVec S128x10000x1 32)
    = broadcastInDim S128x10000x1 ![0, 1] bcast_S128x10000_S128x10000x1_0_1 (wrapCand (W (Proc.devRef .tc main_arg1))) := by
  simp only [opsA, hostOps0, List.take_succ_cons, List.take_zero]
  after_results <;> rfl

end StageA

section StageB
variable (W : Valuation τ sig (Elt F))

theorem B_v20 : (StableHlo.after opsB W (Proc.devRef .tc main_v20) : IVec S128x10000 1)
    = cmpf .ogt
        (Host.scatterAdd scatter_S128x10000_S128x10000x2_S128x10000_n_01_01_2
          (W (Proc.devRef .tc main_v2) : FVec F S128x10000 .f32)
          (concatenate S128x10000x2 2 [⟨S128x10000x1, (W (Proc.devRef .tc main_v14) : IVec S128x10000x1 32)⟩,
            ⟨S128x10000x1, (W (Proc.devRef .tc main_v15) : IVec S128x10000x1 32)⟩] concatenates_S128x10000x1_S128x10000x1_S128x10000x2_d2)
          (broadcastInDim S128x10000 ![] bcast_S_S128x10000 (constant (F := F) S_ .f32 0x3F800000#32)))
        (broadcastInDim S128x10000 ![] bcast_S_S128x10000 (constant (F := F) S_ .f32 0x00000000#32)) := by
  simp only [opsB, hostOps0, List.drop_succ_cons, List.drop_zero, List.take_succ_cons, List.take_zero]
  after_results <;> rfl

theorem B_v21 : (StableHlo.after opsB W (Proc.devRef .tc main_v21) : FVec F S128x10000 .f32)
    = broadcastInDim S128x10000 ![] bcast_S_S128x10000 (constant (F := F) S_ .f32 0x00000000#32) := by
  simp only [opsB, hostOps0, List.drop_succ_cons, List.drop_zero, List.take_succ_cons, List.take_zero]
  after_results <;> rfl

theorem B_v33 : (StableHlo.after opsB W (Proc.devRef .tc main_v33) : IVec S128x100x1 32)
    = broadcastInDim S128x100x1 ![0, 1] bcast_S128x100_S128x100x1_0_1
        (broadcastInDim S128x100 ![0, 1] bcast_S128x1_S128x100_0_1 (wrapRows (W (Proc.devRef .tc main_v1)))) := by
  simp only [opsB, hostOps0, List.drop_succ_cons, List.drop_zero, List.take_succ_cons, List.take_zero]
  after_results <;> rfl

theorem B_v34 : (StableHlo.after opsB W (Proc.devRef .tc main_v34) : IVec S128x100x1 32)
    = broadcastInDim S128x100x1 ![0, 1] bcast_S128x100_S128x100x1_0_1 (wrapSeen (W (Proc.devRef .tc main_arg2))) := by
  simp only [opsB, hostOps0, List.drop_succ_cons, List.drop_zero, List.take_succ_cons, List.take_zero]
  after_results <;> rfl

end StageB

section StageC
variable (W : Valuation τ sig (Elt F))

theorem C_v38 : (StableHlo.after opsC W (Proc.devRef .tc main_v38) : FVec F S128x10000 .f32)
    = select (W (Proc.devRef .tc main_v20) : IVec S128x10000 1)
        (broadcastInDim S128x10000 ![] bcast_S_S128x10000 (constant (F := F) S_ .f32 0x00000000#32))
        (Host.scatterAdd scatter_S128x10000_S128x100x2_S128x100_n_01_01_2
          (W (Proc.devRef .tc main_v21) : FVec F S128x10000 .f32)
          (concatenate S128x100x2 2 [⟨S128x100x1, (W (Proc.devRef .tc main_v33) : IVec S128x100x1 32)⟩,
            ⟨S128x100x1, (W (Proc.devRef .tc main_v34) : IVec S128x100x1 32)⟩] concatenates_S128x100x1_S128x100x1_S128x100x2_d2)
          (broadcastInDim S128x100 ![] bcast_S_S128x100 (constant (F := F) S_ .f32 0x3F800000#32))) := by
  simp only [opsC, hostOps0, hostOps0_1, List.drop_succ_cons, List.drop_zero, List.cons_append, List.nil_append]
  after_results <;> (try simp only [StableHlo.TRef.ofBuf, StableHlo.TRef.toBuf, cast_eq]) <;> rfl

end StageC

/-! ## The coefficient matrix -/

section Coef

/-- The zero array the counts start from, and the array of ones they add. -/
abbrev zerosArr (s : Shape) (h : S_.BroadcastsInDim s ![]) : FVec Ideal s .f32 :=
  broadcastInDim s ![] h (constant (F := Ideal) S_ .f32 0x00000000#32)
abbrev onesArr (s : Shape) (h : S_.BroadcastsInDim s ![]) : FVec Ideal s .f32 :=
  broadcastInDim s ![] h (constant (F := Ideal) S_ .f32 0x3F800000#32)

theorem zerosArr_apply (s : Shape) (h : S_.BroadcastsInDim s ![]) (j : s.Idx) : zerosArr s h j = 0 :=
  (broadcastInDim_scalar_apply h _ j).trans Ideal.ofBits_zero_f32
theorem onesArr_apply (s : Shape) (h : S_.BroadcastsInDim s ![]) (j : s.Idx) : onesArr s h j = 1 :=
  (broadcastInDim_scalar_apply h _ j).trans Ideal.ofBits_one_f32

/-- The candidate index pairs [row, candidate, 2]. -/
abbrev candPairs (X : IVec S128x10000 32) : IVec S128x10000x2 32 :=
  concatenate S128x10000x2 2
    [⟨S128x10000x1, broadcastInDim S128x10000x1 ![0, 1] bcast_S128x10000_S128x10000x1_0_1
        (broadcastInDim S128x10000 ![0, 1] bcast_S128x1_S128x10000_0_1 (wrapRows rowWords))⟩,
     ⟨S128x10000x1, broadcastInDim S128x10000x1 ![0, 1] bcast_S128x10000_S128x10000x1_0_1 (wrapCand X)⟩]
    concatenates_S128x10000x1_S128x10000x1_S128x10000x2_d2
/-- The seen index pairs [row, slot, 2]. -/
abbrev seenPairs (X : IVec S128x100 32) : IVec S128x100x2 32 :=
  concatenate S128x100x2 2
    [⟨S128x100x1, broadcastInDim S128x100x1 ![0, 1] bcast_S128x100_S128x100x1_0_1
        (broadcastInDim S128x100 ![0, 1] bcast_S128x1_S128x100_0_1 (wrapRows rowWords))⟩,
     ⟨S128x100x1, broadcastInDim S128x100x1 ![0, 1] bcast_S128x100_S128x100x1_0_1 (wrapSeen X)⟩]
    concatenates_S128x100x1_S128x100x1_S128x100x2_d2

/-- The wrapped row number is the row number. -/
theorem wrapRows_rowWords (p : Fin 128) : wrapRows rowWords (ix2 p 0) = BitVec.ofNat 32 p.val :=
  wrap_of_valid (rowWord_valid p).1 128#32

theorem candPairs_fst (X : IVec S128x10000 32) (p : Fin 128) (q : Fin 10000) :
    candPairs X (ix3 p q 0) = BitVec.ofNat 32 p.val :=
  (pairs_fst bcast_S128x1_S128x10000_0_1 bcast_S128x10000_S128x10000x1_0_1
    concatenates_S128x10000x1_S128x10000x1_S128x10000x2_d2 (wrapRows rowWords) (wrapCand X) p q).trans (wrapRows_rowWords p)

theorem candPairs_snd (X : IVec S128x10000 32) (p : Fin 128) (q : Fin 10000) (h : ValidId (X (ix2 p q))) :
    candPairs X (ix3 p q 1) = X (ix2 p q) :=
  (pairs_snd bcast_S128x1_S128x10000_0_1 bcast_S128x10000_S128x10000x1_0_1
    concatenates_S128x10000x1_S128x10000x1_S128x10000x2_d2 (wrapRows rowWords) (wrapCand X) p q).trans (wrap_of_valid h 10000#32)

theorem seenPairs_fst (X : IVec S128x100 32) (p : Fin 128) (q : Fin 100) :
    seenPairs X (ix3 p q 0) = BitVec.ofNat 32 p.val :=
  (pairs_fst bcast_S128x1_S128x100_0_1 bcast_S128x100_S128x100x1_0_1
    concatenates_S128x100x1_S128x100x1_S128x100x2_d2 (wrapRows rowWords) (wrapSeen X) p q).trans (wrapRows_rowWords p)

theorem seenPairs_snd (X : IVec S128x100 32) (p : Fin 128) (q : Fin 100) (h : ValidId (X (ix2 p q))) :
    seenPairs X (ix3 p q 1) = X (ix2 p q) :=
  (pairs_snd bcast_S128x1_S128x100_0_1 bcast_S128x100_S128x100x1_0_1
    concatenates_S128x100x1_S128x100x1_S128x100x2_d2 (wrapRows rowWords) (wrapSeen X) p q).trans (wrap_of_valid h 10000#32)

/-- How often the id `v` occurs among row `b`'s candidates: the first scatter-add at (b, v). -/
theorem candCount_apply (item : IVec S128x10000 32) (hitem : ∀ (p : Fin 128) (q : Fin 10000), ValidId (item (ix2 p q)))
    (b : Fin 128) (v : Fin 10000) :
    (Host.scatterAdd scatter_S128x10000_S128x10000x2_S128x10000_n_01_01_2 (zerosArr S128x10000 bcast_S_S128x10000)
        (candPairs item) (onesArr S128x10000 bcast_S_S128x10000) : S128x10000.Idx → EReal) (ix2 b v)
      = (((Finset.univ.filter fun q : Fin 10000 => (item (ix2 b q)).toNat = v.val).card : ℝ) : EReal) := by
  have h := scatter_ones_count (A := 128) (B := 10000) (P := 128) (Q := 10000) scatter_S128x10000_S128x10000x2_S128x10000_n_01_01_2_wf
    (candPairs item) (zerosArr S128x10000 bcast_S_S128x10000) (onesArr S128x10000 bcast_S_S128x10000) b v
    (zerosArr_apply _ _ _) (onesArr_apply _ _)
  rw [card_pairs (candPairs item) item (candPairs_fst item) (fun p q => candPairs_snd item p q (hitem p q)) hitem b v] at h
  exact h

/-- How often the id `v` occurs among row `b`'s seen slots: the second scatter-add at (b, v). -/
theorem seenCount_apply (seen : IVec S128x100 32) (hseen : ∀ (p : Fin 128) (q : Fin 100), ValidId (seen (ix2 p q)))
    (b : Fin 128) (v : Fin 10000) :
    (Host.scatterAdd scatter_S128x10000_S128x100x2_S128x100_n_01_01_2 (zerosArr S128x10000 bcast_S_S128x10000)
        (seenPairs seen) (onesArr S128x100 bcast_S_S128x100) : S128x10000.Idx → EReal) (ix2 b v)
      = (((Finset.univ.filter fun s : Fin 100 => (seen (ix2 b s)).toNat = v.val).card : ℝ) : EReal) := by
  have h := scatter_ones_count (A := 128) (B := 10000) (P := 128) (Q := 100) scatter_S128x10000_S128x100x2_S128x100_n_01_01_2_wf
    (seenPairs seen) (zerosArr S128x10000 bcast_S_S128x10000) (onesArr S128x100 bcast_S_S128x100) b v
    (zerosArr_apply _ _ _) (onesArr_apply _ _)
  rw [card_pairs (seenPairs seen) seen (seenPairs_fst seen) (fun p q => seenPairs_snd seen p q (hseen p q)) hseen b v] at h
  exact h

/-- The select of zero where the candidate count is positive, else the seen count, is the coefficient matrix. -/
theorem coef_term (item : IVec S128x10000 32) (seen : IVec S128x100 32)
    (hitem : ∀ (p : Fin 128) (q : Fin 10000), ValidId (item (ix2 p q)))
    (hseen : ∀ (p : Fin 128) (q : Fin 100), ValidId (seen (ix2 p q))) :
    (select
      (cmpf .ogt
        (Host.scatterAdd scatter_S128x10000_S128x10000x2_S128x10000_n_01_01_2 (zerosArr S128x10000 bcast_S_S128x10000)
          (candPairs item) (onesArr S128x10000 bcast_S_S128x10000))
        (zerosArr S128x10000 bcast_S_S128x10000))
      (zerosArr S128x10000 bcast_S_S128x10000)
      (Host.scatterAdd scatter_S128x10000_S128x100x2_S128x100_n_01_01_2 (zerosArr S128x10000 bcast_S_S128x10000)
        (seenPairs seen) (onesArr S128x100 bcast_S_S128x100)) : S128x10000.Idx → EReal) = coef item seen := by
  funext j
  obtain ⟨b, v, rfl⟩ : ∃ (b : Fin 128) (v : Fin 10000), j = ix2 b v := ⟨j 0, j 1, eq_ix2 j⟩
  rw [select_apply, cmpf_apply, candCount_apply item hitem b v, seenCount_apply seen hseen b v, zerosArr_apply]
  show Scalar.select (Ideal.cmp .ogt _ 0) 0 _ = _
  by_cases h : ∃ i : Fin 10000, (item (ix2 b i)).toNat = v.val
  · obtain ⟨i, hi⟩ := h
    have hpos : (0 : EReal) < (((Finset.univ.filter fun q : Fin 10000 => (item (ix2 b q)).toNat = v.val).card : ℝ) : EReal) := by
      have : 0 < (Finset.univ.filter fun q : Fin 10000 => (item (ix2 b q)).toNat = v.val).card :=
        Finset.card_pos.mpr ⟨i, Finset.mem_filter.mpr ⟨Finset.mem_univ _, hi⟩⟩
      exact_mod_cast this
    refine Eq.trans ?_ (if_pos ⟨i, hi⟩).symm
    show Scalar.select (BitVec.ofBool (decide ((0 : EReal) < _))) 0 _ = 0
    rw [decide_eq_true hpos]
    exact select_one _ _
  · have hz : (Finset.univ.filter fun q : Fin 10000 => (item (ix2 b q)).toNat = v.val).card = 0 :=
      Finset.card_eq_zero.mpr (Finset.filter_eq_empty_iff.mpr fun q _ hq => h ⟨q, hq⟩)
    refine Eq.trans ?_ (if_neg h).symm
    rw [hz]
    show Scalar.select (BitVec.ofBool (decide ((0 : EReal) < ((0 : ℕ) : ℝ)))) 0 _ = _
    rw [decide_eq_false (by simp)]
    exact select_zero _ _

end Coef

end Histogram

open Histogram

/-! ## The array the region finds -/

variable (m : (ℓ : Loc nD τ sig) → Buf (Elt Ideal) ℓ)

/-- On valid ids the second operand of the matrix product is the coefficient matrix. -/
theorem coefArr_eq (c : Dev nD) (hitem : ∀ j, ValidId (itemArr m c j)) (hseen : ∀ j, ValidId (seenArr m c j)) :
    coefArr m c = coef (itemArr m c) (seenArr m c) := by
  have e : (coefArr m c : S128x10000.Idx → EReal)
      = select
          (cmpf .ogt
            (Host.scatterAdd scatter_S128x10000_S128x10000x2_S128x10000_n_01_01_2 (zerosArr S128x10000 bcast_S_S128x10000)
              (candPairs (itemArr m c)) (onesArr S128x10000 bcast_S_S128x10000))
            (zerosArr S128x10000 bcast_S_S128x10000))
          (zerosArr S128x10000 bcast_S_S128x10000)
          (Host.scatterAdd scatter_S128x10000_S128x100x2_S128x100_n_01_01_2 (zerosArr S128x10000 bcast_S_S128x10000)
            (seenPairs (seenArr m c)) (onesArr S128x100 bcast_S_S128x100)) := by
    dsimp only [coefArr, Gen.V, Gen.V0]
    rw [ops_split, StableHlo.after_append, StableHlo.after_append, C_v38, B_v20, B_v21, B_v33, B_v34,
      A_v2, A_v14, A_v15, A_v1, A_arg2]
  rw [e]
  exact coef_term (itemArr m c) (seenArr m c) (fun p q => hitem _) (fun p q => hseen _)

end Cert.KernelIdeal.KnnValue

end
-- ==== Proof.BlockProduct.lean ====
/-
  The matrix product, block by block.

  The grid has 50 points. Point t stages rows [200 t, 200 t + 200) of the similarity table (all 10000 columns) and the
  whole coefficient matrix [128, 10000], multiplies them contracting the shared item axis into a zero accumulator, and
  writes the 200 × 128 result to rows [200 t, 200 t + 200) of the product array [10000, 128]. Entry (p, b) of the block
  is ∑ v, table[200 t + p, v] · coef[b, v]; the 50 blocks tile the product array, so after the last point the array is
  the table times the coefficient matrix, entry (u, b) = ∑ v, table[u, v] · coef[b, v]. (The narrowing of both operands
  to a shorter float format before the product is the identity on extended reals.)
-/
import proofs.«417806_j46179488367358_1_alg».proof.Proof.KernelArrays
import Idealize.ShloMosaic.Lib.Pipeline.Value
import Idealize.ShloMosaic.PureOps.Ideal.Laws

noncomputable section

namespace Cert.KernelIdeal.KnnValue

open Cert.KernelIdeal Cert.KernelIdeal.Gen Cert.Knn
open Idealize.ShloMosaic Idealize.ShloMosaic.TcCoe Idealize.ShloMosaic.ValueIdx Idealize.SL.Sem
open Idealize.ShloMosaic.Pipeline (Dat Cfg)
open scoped BigOperators

/-! ## One block: the contraction at an entry -/

/-- The dot's left operand is read at (the result's row, the contraction position). -/
theorem dot_lhs_row (j : S200x128.Idx) (k : dot_S200x10000_S128x10000_S200x128_1_1_0_0_n_n.contr.Idx) :
    (dot_S200x10000_S128x10000_S200x128_1_1_0_0_n_n.lhsIdx j k (0 : Fin 2)).val = (j 0).val := by
  unfold DotDims.lhsIdx
  rw [dif_neg (by decide), dif_pos (by decide)]
  rfl

theorem dot_lhs_col (j : S200x128.Idx) (k : dot_S200x10000_S128x10000_S200x128_1_1_0_0_n_n.contr.Idx) :
    (dot_S200x10000_S128x10000_S200x128_1_1_0_0_n_n.lhsIdx j k (1 : Fin 2)).val = (k ⟨0, by decide⟩).val :=
  dot_S200x10000_S128x10000_S200x128_1_1_0_0_n_n.lhsIdx_val_of_single rfl j k

/-- The dot's right operand is read at (the result's column, the contraction position). -/
theorem dot_rhs_row (j : S200x128.Idx) (k : dot_S200x10000_S128x10000_S200x128_1_1_0_0_n_n.contr.Idx) :
    (dot_S200x10000_S128x10000_S200x128_1_1_0_0_n_n.rhsIdx j k (0 : Fin 2)).val = (j 1).val := by
  unfold DotDims.rhsIdx
  rw [dif_neg (by decide), dif_pos (by decide)]
  rfl

theorem dot_rhs_col (j : S200x128.Idx) (k : dot_S200x10000_S128x10000_S200x128_1_1_0_0_n_n.contr.Idx) :
    (dot_S200x10000_S128x10000_S200x128_1_1_0_0_n_n.rhsIdx j k (1 : Fin 2)).val = (k ⟨0, by decide⟩).val :=
  dot_S200x10000_S128x10000_S200x128_1_1_0_0_n_n.rhsIdx_val_of_single rfl j k

/-- Entry (p, b) of what the body stores: row p of the staged table rows against row b of the staged coefficients. -/
theorem block_entry (x0 : Vec Ideal S200x10000 .f32) (x1 : Vec Ideal S128x10000 .f32) (p : Fin 200) (b : Fin 128) :
    k0_pay1 x0 x1 (ix2 p b) = ∑ v : Fin 10000, x0 (ix2 p v) * x1 (ix2 b v) := by
  unfold k0_pay1
  rw [shapeCast_self]
  refine (Ideal.matmul_constant_zero_apply dot_S200x10000_S128x10000_S200x128_1_1_0_0_n_n none _ _ (ix2 p b)).trans ?_
  rw [← Equiv.sum_comp (contrEquiv1 dot_S200x10000_S128x10000_S200x128_1_1_0_0_n_n 10000 rfl rfl).symm]
  refine Finset.sum_congr rfl fun v _ => ?_
  have hk := contrEquiv1_symm_val dot_S200x10000_S128x10000_S200x128_1_1_0_0_n_n 10000 rfl rfl v
  congr 1
  · show x0 _ = x0 _
    congr 1; funext a; apply Fin.ext
    match a with
    | ⟨0, _⟩ => exact dot_lhs_row _ _
    | ⟨1, _⟩ => exact (dot_lhs_col _ _).trans hk
  · show x1 _ = x1 _
    congr 1; funext a; apply Fin.ext
    match a with
    | ⟨0, _⟩ => exact dot_rhs_row _ _
    | ⟨1, _⟩ => exact (dot_rhs_col _ _).trans hk

/-- The same at any entry of the block, by its two coordinates. -/
theorem block_entry_at (x0 : Vec Ideal S200x10000 .f32) (x1 : Vec Ideal S128x10000 .f32) (y : S200x128.Idx) :
    k0_pay1 x0 x1 y = ∑ v : Fin 10000, x0 (ix2 (y 0) v) * x1 (ix2 (y 1) v) := by
  obtain ⟨p, b, rfl⟩ : ∃ (p : Fin 200) (b : Fin 128), y = ix2 p b := ⟨y 0, y 1, eq_ix2 y⟩
  exact block_entry x0 x1 p b

/-! ## From the blocks to the array -/

variable (m : (ℓ : Loc nD τ sig) → Buf (Elt Ideal) ℓ)

/-- The similarity table as the region finds it (the host lines before the region do not touch it). -/
abbrev simV (c : Dev nD) : SSim.Idx → EReal := V m c main_arg3

theorem simV_eq (c : Dev nD) : simV m c = simArr m c := V_main_arg3 m c

theorem origin2 : (![0, 0] : Fin 2 → Nat) = fun _ => 0 := funext fun a => by fin_cases a <;> rfl

/-- The printed index maps over the 50 grid points: the table's block and the product's block are block-row t, every
    other block coordinate is 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the table times the coefficient matrix. -/
theorem written_block (c : Dev nD) (t : Fin cfg0.N) :
    (dats m 0 c).flushed 2 t
      = ((cfg0.win 2).blk t).view.read (Elt Ideal) (tableProduct (simV m c) (coefArr m c)) := by
  show (cfg0.win 2).cut (grid0.coords t) ((dats m 0 c).after 2 t) = _
  rw [after0_2]
  unfold out0_2
  rw [View.canon_unit_zero origin2]
  simp only [View.ld_unit_zero (S := S200x10000) origin2, View.ld_unit_zero (S := S128x10000) origin2]
  obtain ⟨e00, e01, e10, e11, e20, e21⟩ := block_indices t
  funext y
  refine (block_entry_at (iblk m c 0 t) (iblk m c 1 t) _).trans ?_
  show _ = ∑ v : Fin 10000, simV m c (ix2 ((((cfg0.win 2).blk t).view.emb y) 0) v)
    * coefArr m c (ix2 ((((cfg0.win 2).blk t).view.emb y) 1) v)
  refine Finset.sum_congr rfl fun v _ => congrArg₂ (· * ·) ?_ ?_
  · show simV m c (((cfg0.win 0).blk t).view.emb (ix2 (y 0) v)) = simV m c _
    refine congrArg (simV m c) (funext fun a => Fin.ext ?_)
    match a with
    | ⟨0, _⟩ =>
      show win0_0.index t (0 : Fin 2) * 200 + 1 * (y 0).val = win0_2.index t (0 : Fin 2) * 200 + 1 * (y 0).val
      omega
    | ⟨1, _⟩ =>
      show win0_0.index t (1 : Fin 2) * 10000 + 1 * v.val = v.val
      omega
  · show coefArr m c (((cfg0.win 1).blk t).view.emb (ix2 (y 1) v)) = coefArr m c _
    refine congrArg (coefArr m c) (funext fun a => Fin.ext ?_)
    match a with
    | ⟨0, _⟩ =>
      show win0_1.index t (0 : Fin 2) * 128 + 1 * (y 1).val = win0_2.index t (1 : Fin 2) * 128 + 1 * (y 1).val
      omega
    | ⟨1, _⟩ =>
      show win0_1.index t (1 : Fin 2) * 10000 + 1 * v.val = v.val
      omega

/-- An entry of the product array lies in point t's block iff each coordinate lies in the block's range on its axis. -/
theorem mem_block (t : Fin cfg0.N) (i : S10000x128.Idx) :
    i ∈ ((cfg0.win 2).blk t).view.set
      ↔ ∀ a : Fin 2, win0_2.index t a * S200x128.size a ≤ (i a).val ∧ (i a).val < win0_2.index t a * S200x128.size a + S200x128.size a := by
  show i ∈ ((View.whole main_v39).slice (win0_2.rect t)).set ↔ _
  rw [View.set_slice_whole, Rect.mem_set_unit]
  exact Iff.rfl

/-- Row u of the product array is written by point u / 200: the blocks tile the array. -/
theorem blocks_cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 50 := N_0
  let t : Fin cfg0.N := ⟨(i 0).val / 200, by rw [hN]; omega⟩
  obtain ⟨-, -, -, -, e20, e21⟩ := block_indices t
  have ht : t.val = (i 0).val / 200 := rfl
  refine ⟨t, flush0_2 t, ?_⟩
  rw [mem_block]
  intro a
  match a with
  | ⟨0, _⟩ =>
    show win0_2.index t (0 : Fin 2) * 200 ≤ (i 0).val ∧ (i 0).val < win0_2.index t (0 : Fin 2) * 200 + 200
    omega
  | ⟨1, _⟩ =>
    show win0_2.index t (1 : Fin 2) * 128 ≤ (i 1).val ∧ (i 1).val < win0_2.index t (1 : Fin 2) * 128 + 128
    omega

/-- After the last grid point the product array is the table times the coefficient matrix. -/
theorem prodArr_eq (c : Dev nD) : prodArr m c = tableProduct (simArr m c) (coefArr m c) :=
  ((dats m 0 c).arrAt_eq_of_cover 2 (tableProduct (simV m c) (coefArr m c))
      (fun t _ => written_block m c t) blocks_cover).trans
    (congrArg (fun s : SSim.Idx → EReal => tableProduct s (coefArr m c)) (simV_eq m c))

end Cert.KernelIdeal.KnnValue

end
-- ==== Proof.TakeAlong.lean ====
/-
  The host lines after the matrix product: the product array is transposed to [batch, item] and each candidate reads
  its own item's column of its row; a valid id is in range, so nothing is filled.
-/
import proofs.«417806_j46179488367358_1_alg».proof.Proof.KernelArrays
import proofs.«417806_j46179488367358_1_alg».proof.Proof.Ids
import Idealize.ShloMosaic.Lib.Pipeline.Value
import Idealize.ShloMosaic.Lib.ValueLayout
import Idealize.ShloMosaic.Lib.StableHlo.Run

noncomputable section

namespace Cert.KernelIdeal.KnnValue

open Cert.KernelIdeal Cert.KernelIdeal.Gen Cert.Knn
open Idealize.ShloMosaic Idealize.ShloMosaic.TcCoe Idealize.ShloMosaic.ValueIdx Idealize.SL.Sem
open Idealize.ShloMosaic.Pipeline (Dat Cfg)

variable (m : (ℓ : Loc nD τ sig) → Buf (Elt Ideal) ℓ)

/-! ### The casts of the inlined function's typed references

The gather function's lines are stated over typed references; each moves contents to its buffer's type and back.
At a literal reference both moves are the identity. -/

/-- Contents moved to a typed reference's buffer type and back are the contents. -/
theorem ofBuf_toBuf_id {sig : RefSig} {T : BufTy} {Val : EltTy → Type} (x : StableHlo.TRef sig T) (v : T.Contents Val) :
    x.ofBuf (x.toBuf v) = v := by
  obtain ⟨r, h, h2, h3⟩ := x
  subst h
  rfl

theorem toBuf_v41 (v : (⟨S128x10000, .f32⟩ : BufTy).Contents (Elt Ideal)) :
    (.of main_v41 : StableHlo.TRef sig ⟨S128x10000, .f32⟩).toBuf v = v := rfl
theorem toBuf_v4 (v : (⟨S128x10000, .i32⟩ : BufTy).Contents (Elt Ideal)) :
    (.of main_call1_v4 : StableHlo.TRef sig ⟨S128x10000, .i32⟩).toBuf v = v := rfl
theorem ofBuf_v5 (v : (⟨S128x10000x1, .i32⟩ : BufTy).Contents (Elt Ideal)) :
    (.of main_call1_v5 : StableHlo.TRef sig ⟨S128x10000x1, .i32⟩).ofBuf v = v := rfl
theorem ofBuf_v40 (v : (⟨S128x10000, .f32⟩ : BufTy).Contents (Elt Ideal)) :
    (.of main_v40 : StableHlo.TRef sig ⟨S128x10000, .f32⟩).ofBuf v = v := rfl
theorem ofBuf_arg1 (v : (⟨S128x10000, .i32⟩ : BufTy).Contents (Elt Ideal)) :
    (.of main_arg1 : StableHlo.TRef sig ⟨S128x10000, .i32⟩).ofBuf v = v := rfl

/-! ### What the lines after the region find -/

/-- After the region the matrix product's output buffer holds the product array. -/
theorem exit_prod (c : Dev nD) :
    Pipeline.withArrays (cfgs 0).spec c (V0 m c) (fun w => (dats m 0 c).arrAt w (cfgs 0).N) (Proc.tc.devRef main_v39)
      = prodArr m c :=
  Pipeline.withArrays_arr spec0 launch0.win.arr_inj c _ _ 2

/-- The candidate ids are no window's array and no line before the region writes them: they are as launched. -/
theorem exit_item (c : Dev nD) :
    Pipeline.withArrays (cfgs 0).spec c (V0 m c) (fun w => (dats m 0 c).arrAt w (cfgs 0).N) (Proc.tc.devRef main_arg1)
      = itemArr m c := by
  rw [Pipeline.withArrays_of_ne _ c (V0 m c) _ main_arg1 (by exact (by decide : ∀ w, Pipeline.arrRef spec0 w ≠ main_arg1))]
  exact V_main_arg1 m c

/-! ### The gather's index arithmetic -/

/-- The ids as the gather reads them: a negative id has the row length added. -/
def wrapIds (item : IVec S128x10000 32) : IVec S128x10000 32 :=
  select (cmpi .slt item (broadcastInDim S128x10000 ![] bcast_S_S128x10000 (constantI S_ 32 0#32)))
    (addi item (broadcastInDim S128x10000 ![] bcast_S_S128x10000 (constantI S_ 32 10000#32))) item

/-- The wrapped ids as start indices [batch, candidate, 1]. -/
def startIdx (item : IVec S128x10000 32) : IVec S128x10000x1 32 :=
  shapeCast S128x10000x1 (wrapIds item) shapeCasts_S128x10000_S128x10000x1

/-- The in-range mask: both range tests of every start index, joined over the unit axis. -/
def inRange (item : IVec S128x10000 32) : IVec S128x10000 1 :=
  Host.reduce IntOp.andi
    (andi
      (cmpi .sge (startIdx item) (broadcastInDim S128x10000x1 ![] bcast_S_S128x10000x1 (constantI S_ 32 0#32)))
      (cmpi .sle (startIdx item)
        (broadcastInDim S128x10000x1 ![0, 1, 2] bcast_S1x1x1_S128x10000x1_0_1_2
          (broadcastInDim S1x1x1 ![2] bcast_S1_S1x1x1_2 (constantI S1 32 9999#32)))))
    (constantI S_ 1 1#1) reducesTo_S128x10000x1_S128x10000_d2 h_S_

/-- A valid id is not negative, so wrapping leaves it. -/
theorem wrapIds_apply (item : IVec S128x10000 32) (j : S128x10000.Idx) (h : ValidId (item j)) : wrapIds item j = item j := by
  show Scalar.select (IntOp.cmpi .slt (item j) 0#32) _ _ = _
  rw [h.slt_zero, select_zero]

/-- The start index at (b, i, 0) is the wrapped id at (b, i): both sit at row-major position 10000 b + i. -/
theorem startIdx_apply (item : IVec S128x10000 32) (b : Fin 128) (i : Fin 10000) (u : Fin 1) :
    startIdx item (ix3 b i u) = wrapIds item (ix2 b i) := by
  unfold startIdx
  refine shapeCast_apply _ _ _ _ ?_
  rw [Shape.rowMajor_val_two, Shape.rowMajor_val_three]
  show b.val * 10000 + i.val = (b.val * 10000 + i.val) * 1 + u.val
  have := u.isLt
  omega

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- With every candidate id valid every start index passes both range tests, so the mask is 1 everywhere. -/
theorem inRange_apply (item : IVec S128x10000 32) (h : ∀ j, ValidId (item j)) (j : S128x10000.Idx) : inRange item j = 1#1 := by
  unfold inRange
  rw [Host.reduce_eq_foldl]
  show List.foldl _ 1#1 _ = 1#1
  refine foldl_andi_one _ _ fun k _ => ?_
  obtain ⟨b, i, u, rfl⟩ : ∃ b i u, k = ix3 b i u := ⟨k 0, k 1, k 2, eq_ix3 k⟩
  show IntOp.andi (IntOp.cmpi .sge (startIdx item (ix3 b i u)) 0#32) (IntOp.cmpi .sle (startIdx item (ix3 b i u)) 9999#32) = 1#1
  rw [startIdx_apply, wrapIds_apply _ _ (h _), (h _).sge_zero, (h _).sle_last]
  decide

/-- The batched gather read at (b, i): the operand's row b at the start index idx[b, i, 0], read signed and clamped
    into the row. On axis 0 (the batching axis) the operand index is the result's batch coordinate; on axis 1 (the
    start-indexed, collapsed axis) it is the clamped start. -/
theorem gather_apply {α : Type} (x : S128x10000.Idx → α) (idx : IVec S128x10000x1 32) (b : Fin 128) (i : Fin 10000) :
    Host.gather gather_S128x10000_S128x10000x1_S128x10000_n_1_0_0_1_2_11 x idx (ix2 b i)
      = x (ix2 b ⟨min (idx (ix3 b i 0)).toInt.toNat 9999, by omega⟩) := by
  unfold Host.gather
  congr 1
  funext a
  refine Fin.ext ?_
  show GatherDims.start _ (ix2 b i) idx a + GatherDims.batchCoord _ (ix2 b i) a + GatherDims.offCoord _ (ix2 b i) a = _
  match a with
  | ⟨0, _⟩ =>
    have hb : (⟨0, by decide⟩ : Fin S128x10000.rank) ∈ gather_S128x10000_S128x10000x1_S128x10000_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨1, _⟩ =>
    have hs : (⟨1, by decide⟩ : Fin S128x10000.rank) ∈ gather_S128x10000_S128x10000x1_S128x10000_n_1_0_0_1_2_11.startIndexMap :=
      List.mem_singleton.mpr rfl
    have hc : (⟨1, by decide⟩ : Fin S128x10000.rank) ∈ gather_S128x10000_S128x10000x1_S128x10000_n_1_0_0_1_2_11.collapsedSliceDims :=
      List.mem_singleton.mpr rfl
    rw [GatherDims.batchCoord_eq_zero _ _ _ (fun h => GatherDims.sim_disjoint _ _ hs h),
      GatherDims.offCoord_eq_zero _ _ _ (fun h => ((GatherDims.mem_sKept _ _).mp h).1 hc)]
    unfold GatherDims.start
    rw [dif_pos hs]
    have hsi : gather_S128x10000_S128x10000x1_S128x10000_n_1_0_0_1_2_11.siIdx (ix2 b i)
        ⟨List.idxOf (⟨1, by decide⟩ : Fin S128x10000.rank) gather_S128x10000_S128x10000x1_S128x10000_n_1_0_0_1_2_11.startIndexMap,
          List.idxOf_lt_length_iff.2 hs⟩ = ix3 b i 0 := by
      funext k; refine Fin.ext ?_
      match k with
      | ⟨0, _⟩ => rfl
      | ⟨1, _⟩ => rfl
      | ⟨2, _⟩ => rfl
    rw [hsi]
    rfl

/-! ### The result -/

/-- On valid candidate ids the program's result, entry (b, i), is the product array at (item[b, i], b). -/
theorem result_eq (c : Dev nD) (hitem : ∀ j, ValidId (itemArr m c j)) :
    (Pipeline.afterTail₀ cfgs (dats m) 0 (V0 m) [hostOps1, hostOps1_1] c main_v41 : SCand.Idx → EReal)
      = fun j => prodArr m c (ix2 (clampId (itemArr m c j)) (j 0)) := by
  unfold Pipeline.afterTail₀
  show StableHlo.after (List.flatten [hostOps1, hostOps1_1]) _ (Proc.devRef .tc main_v41) = _
  simp only [Gen.hostOps1, Gen.hostOps1_1, List.flatten_cons, List.flatten_nil, List.append_nil, List.cons_append,
    List.nil_append]
  after_results_simp
  simp only [ofBuf_toBuf_id]
  rw [exit_prod m c, exit_item m c]
  simp only [toBuf_v41, toBuf_v4, ofBuf_v5, ofBuf_v40, ofBuf_arg1]
  show select (inRange (itemArr m c)) (Host.gather _ _ (startIdx (itemArr m c))) _ = _
  funext j
  obtain ⟨b, i, rfl⟩ : ∃ b i, j = ix2 b i := ⟨j 0, j 1, eq_ix2 j⟩
  rw [select_apply, inRange_apply _ hitem, select_one, gather_apply, transpose_ix2_apply]
  have e : startIdx (itemArr m c) (ix3 b i 0) = itemArr m c (ix2 b i) := by
    rw [startIdx_apply, wrapIds_apply _ _ (hitem _)]
  simp only [e]
  rfl

end Cert.KernelIdeal.KnnValue

end
-- ==== Proof.Regroup.lean ====
/-
  The score as a matrix product: the multiplicity of an item among a row's seen slots, times a real similarity,
  is that similarity once per slot.
-/
import proofs.«417806_j46179488367358_1_alg».proof.Proof.Score
import proofs.«417806_j46179488367358_1_alg».proof.Proof.Ids

noncomputable section

namespace Cert.Knn

open Idealize.ShloMosaic Idealize.ShloMosaic.ValueIdx
open scoped BigOperators

/-- The coercion of the reals into the extended reals goes through a finite sum (by induction on the index set:
    the coercion sends 0 to 0 and a sum of two reals to the sum of their coercions). -/
theorem coe_sum_real {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Row u of the table against row b of the coefficient matrix is the sum over the seen slots of row b that hold no
    candidate of row b of the table's entry (u, that slot's id), when every similarity is a real number and the seen ids are valid. -/
theorem tableProduct_coef (item : IVec SCand 32) (seen : IVec SSeen 32) (sim : SSim.Idx → EReal)
    (hsim : ∀ i, ∃ r : ℝ, sim i = (r : EReal)) (hseen : ∀ j, ValidId (seen j)) (u : Fin 10000) (b : Fin 128) :
    tableProduct sim (coef item seen) (ix2 u b)
      = ∑ s : Fin 100, if IsCand item b (seen (ix2 b s)) then 0 else sim (ix2 u (clampId (seen (ix2 b s)))) := by
  -- every similarity is the coercion of a real number r
  choose r hr using hsim
  -- the clamp of a seen id is the item v exactly when the id's value is v
  have hcl : ∀ (s : Fin 100) (v : Fin 10000),
      clampId (seen (ix2 b s)) = v ↔ (seen (ix2 b s)).toNat = v.val := by
    intro s v
    rw [Fin.ext_iff, clampId_val (hseen _)]
  -- one term of the contraction, split back into one term per seen slot
  have key : ∀ v : Fin 10000, sim (ix2 u v) * coef item seen (ix2 b v)
      = ∑ s : Fin 100, if clampId (seen (ix2 b s)) = v then
          (if IsCand item b (seen (ix2 b s)) then 0 else sim (ix2 u (clampId (seen (ix2 b s))))) else 0 := by
    intro v
    show sim (ix2 u v) * (if ∃ i : Fin 10000, (item (ix2 b i)).toNat = v.val then 0
      else (((Finset.univ.filter fun s : Fin 100 => (seen (ix2 b s)).toNat = v.val).card : ℝ) : EReal)) = _
    by_cases hc : ∃ i : Fin 10000, (item (ix2 b i)).toNat = v.val
    · -- v is a candidate: the coefficient is 0, and a seen slot holding v holds a candidate, so every term is 0
      rw [if_pos hc, mul_zero]
      symm
      apply Finset.sum_eq_zero
      intro s _
      split_ifs with h1 h2
      · rfl
      · exfalso
        apply h2
        obtain ⟨i, hi⟩ := hc
        exact ⟨i, BitVec.eq_of_toNat_eq (hi.trans ((hcl s v).1 h1).symm)⟩
      · rfl
    · -- v is no candidate: no slot holding v holds a candidate, and r · #{s | seen[b,s] = v} = ∑ s, [seen[b,s] = v] · r in ℝ
      rw [if_neg hc]
      have e1 : ∀ s : Fin 100, (if clampId (seen (ix2 b s)) = v then
          (if IsCand item b (seen (ix2 b s)) then 0 else sim (ix2 u (clampId (seen (ix2 b s))))) else 0)
          = (((if (seen (ix2 b s)).toNat = v.val then r (ix2 u v) else 0 : ℝ)) : EReal) := by
        intro s
        by_cases h1 : clampId (seen (ix2 b s)) = v
        · have h1' := (hcl s v).1 h1
          have hn : ¬ IsCand item b (seen (ix2 b s)) := by
            rintro ⟨i, hi⟩
            exact hc ⟨i, by rw [hi]; exact h1'⟩
          rw [if_pos h1, if_neg hn, if_pos h1', h1, hr]
        · have h1' : ¬ (seen (ix2 b s)).toNat = v.val := fun h => h1 ((hcl s v).2 h)
          rw [if_neg h1, if_neg h1', EReal.coe_zero]
      rw [Finset.sum_congr rfl (fun s _ => e1 s), ← coe_sum_real, hr, ← EReal.coe_mul]
      congr 1
      rw [Finset.sum_ite, Finset.sum_const, Finset.sum_const_zero, add_zero, nsmul_eq_mul, mul_comm]
  -- sum the terms over v, exchange the two sums, and collapse the sum over v at v = the clamp of the slot's id
  show (∑ v : Fin 10000, sim (ix2 u v) * coef item seen (ix2 b v)) = _
  rw [Finset.sum_congr rfl (fun v _ => key v), Finset.sum_comm]
  refine Finset.sum_congr rfl (fun s _ => ?_)
  rw [Finset.sum_ite_eq, if_pos (Finset.mem_univ _)]

/-- The score is the table product read at the candidate's own row of the table. -/
theorem score_eq_tableProduct (item : IVec SCand 32) (seen : IVec SSeen 32) (sim : SSim.Idx → EReal)
    (hsim : ∀ i, ∃ r : ℝ, sim i = (r : EReal)) (hseen : ∀ j, ValidId (seen j)) (j : SCand.Idx) :
    score item seen sim j = tableProduct sim (coef item seen) (ix2 (clampId (item j)) (j 0)) := by
  -- the score's defining sum is the right-hand side of the regrouping at u = the candidate's clamp, b = the row
  refine Eq.trans ?_ (tableProduct_coef item seen sim hsim hseen (clampId (item j)) (j 0)).symm
  rfl

end Cert.Knn

end
-- ==== Proof.KernelScore.lean ====
/-
  The kernel's run with its result named: under the precondition the program ends with the score in its result
  array and its argument arrays unchanged.

  The result array is read off the frame run: the host lines after the matrix product give entry (b, i) as the
  product array at (item[b, i], b); the product array is the similarity table times the coefficient matrix; and that
  product, at the candidate's own row, is the score.
-/
import proofs.«417806_j46179488367358_1_alg».proof.Defs
import proofs.«417806_j46179488367358_1_alg».proof.Proof.Gen.Pre_finite_inputs
import proofs.«417806_j46179488367358_1_alg».proof.Proof.KernelArrays
import proofs.«417806_j46179488367358_1_alg».proof.Proof.Histogram
import proofs.«417806_j46179488367358_1_alg».proof.Proof.BlockProduct
import proofs.«417806_j46179488367358_1_alg».proof.Proof.TakeAlong
import proofs.«417806_j46179488367358_1_alg».proof.Proof.Regroup
import proofs.«417806_j46179488367358_1_alg».proof.Proof.Domain

noncomputable section

namespace Cert.KernelIdeal.KnnValue

open Cert.KernelIdeal Cert.KernelIdeal.Gen Cert.Knn
open Idealize.ShloMosaic Idealize.ShloMosaic.TcCoe Idealize.ShloMosaic.ValueIdx Idealize.SL.Sem
open Idealize.ShloMosaic.Pipeline (Dat Cfg)

variable (m : (ℓ : Loc nD τ sig) → Buf (Elt Ideal) ℓ) (ρ : Dev nD → PrngReg)

/-- Under the precondition every execution ends with the score in the result array, the arguments unchanged. -/
theorem run_score (hpre : Cert.Pre_KernelIdeal m) :
    θ_run defs (onTc (τ := τ) (main (F := Ideal))) ⟨m, fun _ => 0, ρ⟩ (fun r => ∀ c : Dev nD,
      r.2.mem ((c.tc : Thread nD τ).loc main_v41) = score (itemArr m c) (seenArr m c) (simArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨?_,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 0).trans (((dats m 0 c).arrAt_in 0 rfl _).trans ((A_eq m c 0).trans (V_main_arg3 m c)))⟩) (run_main m ρ)
  have hitem : ∀ j, ValidId (itemArr m c j) := item_valid_of_pre (hpre c)
  have hseen : ∀ j, ValidId (seenArr m c j) := seen_valid_of_pre (hpre c)
  have hsim : ∀ i, ∃ r : ℝ, simArr m c i = (r : EReal) := sim_real_of_pre (hpre c)
  refine ((h c).2 main_v41 (Pipeline.mem_restRefs_of main_v41 (by decide) (by decide))).trans ?_
  refine (result_eq m c hitem).trans ?_
  funext j
  rw [prodArr_eq, coefArr_eq m c hitem hseen]
  exact (score_eq_tableProduct _ _ _ hsim hseen j).symm

end Cert.KernelIdeal.KnnValue

end
-- ==== Proof.lean ====
/- Nearest-neighbour scores of a batch of candidate items: the kernel's entry point against its jnp reference, over the
   extended reals.

   Both programs compute score[b, i] = ∑ over the seen slots s of row b whose id is not a candidate of row b of
   sim[item[b, i], seen[b, s]] (Proof/Score.lean). The reference does it slot by slot with a masked double gather
   (Proof/RefScore.lean). The kernel first counts, per row, how often each item occurs among the seen slots, zeroes the
   count at the row's candidates (Proof/Histogram.lean), multiplies the similarity table by that coefficient matrix
   block of 200 rows by block (Proof/BlockProduct.lean), and reads each candidate's entry out of the product
   (Proof/TakeAlong.lean); a count times a real similarity is that similarity once per slot (Proof/Regroup.lean), which is
   where the similarities' finiteness is used. The ids index the table, so the precondition asks them to be valid item
   ids, 0 ≤ id < 10000 (Proof/Domain.lean reads that, and finiteness, off the printed predicate).
   The frames are the generated ones; the reference's is its run with the result dropped. No operation was idealized,
   so there is nothing to preserve. -/
import proofs.«417806_j46179488367358_1_alg».proof.Defs
import proofs.«417806_j46179488367358_1_alg».proof.Proof.Gen.Kernel
import proofs.«417806_j46179488367358_1_alg».proof.Proof.Gen.Kernel.Skeleton
import proofs.«417806_j46179488367358_1_alg».proof.Proof.Gen.Kernel.Launch
import proofs.«417806_j46179488367358_1_alg».proof.Proof.Gen.Kernel.Points
import proofs.«417806_j46179488367358_1_alg».proof.Proof.Gen.Kernel.Frame
import proofs.«417806_j46179488367358_1_alg».proof.Proof.Gen.KernelIdeal
import proofs.«417806_j46179488367358_1_alg».proof.Proof.Gen.KernelIdeal.Skeleton
import proofs.«417806_j46179488367358_1_alg».proof.Proof.Gen.KernelIdeal.Launch
import proofs.«417806_j46179488367358_1_alg».proof.Proof.Gen.KernelIdeal.Points
import proofs.«417806_j46179488367358_1_alg».proof.Proof.Gen.KernelIdeal.Frame
import proofs.«417806_j46179488367358_1_alg».proof.Proof.Gen.ReferenceIdeal
import proofs.«417806_j46179488367358_1_alg».proof.Proof.Gen.Pre_finite_inputs
import proofs.«417806_j46179488367358_1_alg».proof.Proof.RefRun
import proofs.«417806_j46179488367358_1_alg».proof.Proof.RefScore
import proofs.«417806_j46179488367358_1_alg».proof.Proof.Domain
import proofs.«417806_j46179488367358_1_alg».proof.Proof.KernelScore
import Idealize.ShloMosaic.Adequacy
import Idealize.ShloMosaic.Init

noncomputable section

namespace Cert.Proof

open Idealize.ShloMosaic Idealize.SL.Sem Cert.Kernel

/-- The two idealized programs, from memories that agree on the arguments, both end with the score of the kernel's
    arguments in their result arrays. -/
theorem algebraic : Cert.algebraic_KernelIdeal_ReferenceIdeal := by
  intro m ρ m' ρ' hpre hagree
  refine ⟨fun c => Cert.Knn.score (Cert.KernelIdeal.KnnValue.itemArr m c) (Cert.KernelIdeal.KnnValue.seenArr m c)
    (Cert.KernelIdeal.KnnValue.simArr m c), Cert.KernelIdeal.KnnValue.run_score m ρ hpre, ?_⟩
  refine (θ_run Cert.ReferenceIdeal.defs _ _).mono (fun _ h c => ⟨(h c).1.trans ?_, (h c).2⟩)
    (Cert.ReferenceIdeal.RefValue.run (F := Ideal) m' ρ')
  rw [(hagree c).2.1, (hagree c).2.2.1, (hagree c).2.2.2]
  exact Cert.ReferenceIdeal.RefValue.refResult_eq_score _ _ _ (Cert.Knn.item_valid_of_pre (hpre c))
    (Cert.Knn.seen_valid_of_pre (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefValue.run (F := Ideal) m ρ),
  trivial,
  algebraic⟩

end Cert.Proof

end
